-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S3x256 : Shape := ⟨2, ![3, 256]⟩
abbrev S3 : Shape := ⟨1, ![3]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S32x4096x256 .f32) (main_arg1 : FVec F S3x256 .f32) (main_arg2 : FVec F S3x256 .f32) (main_arg3 : FVec F S3 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S3x256 .f32 := Host.absf main_arg1
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S3x256 .f32 := Host.absf main_arg2
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S32x4096x256 : Shape := ⟨3, ![32, 4096, 256]⟩
abbrev S3x256 : Shape := ⟨2, ![3, 256]⟩
abbrev S3 : Shape := ⟨1, ![3]⟩
abbrev S4096 : Shape := ⟨1, ![4096]⟩
abbrev S_ : Shape := ⟨0, ![]⟩
abbrev S1 : Shape := ⟨1, ![1]⟩
abbrev S4096x256 : Shape := ⟨2, ![4096, 256]⟩
abbrev S4096x1 : Shape := ⟨2, ![4096, 1]⟩
abbrev S1x256 : Shape := ⟨2, ![1, 256]⟩
abbrev S256 : Shape := ⟨1, ![256]⟩
abbrev S32x128x256 : Shape := ⟨3, ![32, 128, 256]⟩
abbrev S128x256 : Shape := ⟨2, ![128, 256]⟩
abbrev S32x128 : Shape := ⟨2, ![32, 128]⟩
abbrev S32x128x1 : Shape := ⟨3, ![32, 128, 1]⟩
abbrev S1x128x256 : Shape := ⟨3, ![1, 128, 256]⟩

abbrev nBuf : Space → Nat
  | .hbm => 119
  | .vmem => 8
  | .smem => 0
  | _ => 0

abbrev bufTy : (tb : Table) → Fin (tcTables nBuf tb) → BufTy
  | .hbm, ⟨0, _⟩ => ⟨S32x4096x256, .f32⟩
  | .hbm, ⟨1, _⟩ => ⟨S3x256, .f32⟩
  | .hbm, ⟨2, _⟩ => ⟨S3x256, .f32⟩
  | .hbm, ⟨3, _⟩ => ⟨S3, .f32⟩
  | .hbm, ⟨4, _⟩ => ⟨S4096, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S3, .f32⟩
  | .hbm, ⟨11, _⟩ => ⟨S3, .f32⟩
  | .hbm, ⟨12, _⟩ => ⟨S3, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S3, .f32⟩
  | .hbm, ⟨17, _⟩ => ⟨S3, .f32⟩
  | .hbm, ⟨18, _⟩ => ⟨S_, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S4096, .f32⟩
  | .hbm, ⟨30, _⟩ => ⟨S1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S1x256, .f32⟩
  | .hbm, ⟨36, _⟩ => ⟨S256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S1x256, .f32⟩
  | .hbm, ⟨48, _⟩ => ⟨S256, .f32⟩
  | .hbm, ⟨49, _⟩ => ⟨S1x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S4096, .i1⟩
  | .hbm, ⟨61, _⟩ => ⟨S4096, .f32⟩
  | .hbm, ⟨62, _⟩ => ⟨S1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S1x256, .f32⟩
  | .hbm, ⟨68, _⟩ => ⟨S256, .f32⟩
  | .hbm, ⟨69, _⟩ => ⟨S1x256, .f32⟩
  | .hbm, ⟨70, _⟩ => ⟨S4096x256, .f32⟩
  | .hbm, ⟨71, _⟩ => ⟨S4096x256, .f32⟩
  | .hbm, ⟨72, _⟩ => ⟨S4096x256, .f32⟩
  | .hbm, ⟨73, _⟩ => ⟨S4096x256, .f32⟩
  | .hbm, ⟨74, _⟩ => ⟨S1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S1x256, .f32⟩
  | .hbm, ⟨80, _⟩ => ⟨S256, .f32⟩
  | .hbm, ⟨81, _⟩ => ⟨S1x256, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S_, .i32⟩
  | .hbm, ⟨87, _⟩ => ⟨S4096, .i32⟩
  | .hbm, ⟨88, _⟩ => ⟨S4096, .i1⟩
  | .hbm, ⟨89, _⟩ => ⟨S_, .i32⟩
  | .hbm, ⟨90, _⟩ => ⟨S4096, .i32⟩
  | .hbm, ⟨91, _⟩ => ⟨S4096, .i1⟩
  | .hbm, ⟨92, _⟩ => ⟨S4096, .i1⟩
  | .hbm, ⟨93, _⟩ => ⟨S4096, .f32⟩
  | .hbm, ⟨94, _⟩ => ⟨S1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S4096x1, .f32⟩
  | .hbm, ⟨99, _⟩ => ⟨S1x256, .f32⟩
  | .hbm, ⟨100, _⟩ => ⟨S256, .f32⟩
  | .hbm, ⟨101, _⟩ => ⟨S1x256, .f32⟩
  | .hbm, ⟨102, _⟩ => ⟨S4096x256, .f32⟩
  | .hbm, ⟨103, _⟩ => ⟨S4096x256, .f32⟩
  | .hbm, ⟨104, _⟩ => ⟨S4096x256, .f32⟩
  | .hbm, ⟨105, _⟩ => ⟨S4096x256, .f32⟩
  | .hbm, ⟨106, _⟩ => ⟨S1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S4096x1, .f32⟩
  | .hbm, ⟨111, _⟩ => ⟨S1x256, .f32⟩
  | .hbm, ⟨112, _⟩ => ⟨S256, .f32⟩
  | .hbm, ⟨113, _⟩ => ⟨S1x256, .f32⟩
  | .hbm, ⟨114, _⟩ => ⟨S4096x256, .f32⟩
  | .hbm, ⟨115, _⟩ => ⟨S4096x256, .f32⟩
  | .hbm, ⟨116, _⟩ => ⟨S4096x256, .f32⟩
  | .hbm, ⟨117, _⟩ => ⟨S4096x256, .f32⟩
  | .hbm, ⟨118, _⟩ => ⟨S32x4096x256, .f32⟩
  | .local _ .vmem, ⟨0, _⟩ => ⟨S32x128x256, .f32⟩
  | .local _ .vmem, ⟨1, _⟩ => ⟨S32x128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S32x128x256, .f32⟩
  | .local _ .vmem, ⟨7, _⟩ => ⟨S32x128x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_c_7 : Ref sig .tc := ⟨.hbm, 86, rfl⟩
abbrev main_v73 : Ref sig .tc := ⟨.hbm, 87, rfl⟩
abbrev main_v74 : Ref sig .tc := ⟨.hbm, 88, rfl⟩
abbrev main_c_8 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S_S4096x256 : S_.BroadcastsInDim S4096x256 (![] : Fin 0 → Fin S4096x256.rank)
  bcast_S_S4096 : S_.BroadcastsInDim S4096 (![] : Fin 0 → Fin S4096.rank)
  slices_S3_S1_0 : S3.Slices ![0] S1
  shapeCasts_S1_S_ : S1.ShapeCasts S_
  bcast_S4096_S4096x1_0 : S4096.BroadcastsInDim S4096x1 (![0] : Fin 1 → Fin S4096x1.rank)
  bcast_S_S4096x1 : S_.BroadcastsInDim S4096x1 (![] : Fin 0 → Fin S4096x1.rank)
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S4096x1_S4096x256_0_1 : S4096x1.BroadcastsInDim S4096x256 (![0, 1] : Fin 2 → Fin S4096x256.rank)
  bcast_S1x256_S4096x256_0_1 : S1x256.BroadcastsInDim S4096x256 (![0, 1] : Fin 2 → Fin S4096x256.rank)
  slices_S3_S1_1 : S3.Slices ![1] S1
  slices_S3x256_S1x256_1_0 : S3x256.Slices ![1, 0] S1x256
  slices_S3_S1_2 : S3.Slices ![2] S1
  slices_S3x256_S1x256_2_0 : S3x256.Slices ![2, 0] S1x256
  inb_S32x128x256_S32x128x256_0_0_0 : ∀ a, (![0, 0, 0] : Fin 3 → Nat) a + S32x128x256.size a ≤ S32x128x256.size a
  h_S32x128x256 : 0 < S32x128x256.numel
  reduces_S32x128x256_S32x128 : S32x128x256.Reduces [2] S32x128
  shapeCasts_S32x128_S32x128x1 : S32x128.ShapeCasts S32x128x1
  broadcasts_S32x128x1_S32x128x256 : S32x128x1.Broadcasts S32x128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x256_S1x128x256 : S128x256.ShapeCasts S1x128x256
  broadcasts_S1x128x256_S32x128x256 : S1x128x256.Broadcasts S32x128x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x256.size a ≤ S32x4096x256.size a
  hwx0_0 : ∀ i : grid0.Coords, EltTy.bits .f32 = 32 ∨ (Rect.block (s := S32x4096x256) S32x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S4096x256.size a
  hwx0_1 : ∀ i : grid0.Coords, EltTy.bits .f32 = 32 ∨ (Rect.block (s := S4096x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S4096x256.size a
  hwx0_2 : ∀ i : grid0.Coords, EltTy.bits .f32 = 32 ∨ (Rect.block (s := S4096x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x256.size a ≤ S32x4096x256.size a
  hwx0_3 : ∀ i : grid0.Coords, EltTy.bits .f32 = 32 ∨ (Rect.block (s := S32x4096x256) S32x128x256.size (cc0_transform_3 i) (hinb0_3 i)).WholeWords (EltTy.packing .f32)

variable [Facts₀]

abbrev win0_0 : Pipeline.Window sig grid0 :=
  Pipeline.Window.ofSpec (Memref.whole main_arg0) S32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v90) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v103) S32x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S3x256 : Shape := ⟨2, ![3, 256]⟩
abbrev S3 : Shape := ⟨1, ![3]⟩
abbrev S_ : Shape := ⟨0, ![]⟩
abbrev S32x4096 : Shape := ⟨2, ![32, 4096]⟩
abbrev S32x4096x1 : Shape := ⟨3, ![32, 4096, 1]⟩
abbrev S1 : Shape := ⟨1, ![1]⟩
abbrev S4096 : Shape := ⟨1, ![4096]⟩
abbrev S1x4096x1 : Shape := ⟨3, ![1, 4096, 1]⟩
abbrev S1x256 : Shape := ⟨2, ![1, 256]⟩
abbrev S256 : Shape := ⟨1, ![256]⟩
abbrev S1x1x256 : Shape := ⟨3, ![1, 1, 256]⟩

abbrev nBuf : Space → Nat
  | .hbm => 136
  | .vmem => 0
  | .smem => 0
  | _ => 0

abbrev hbmTy0_0 (i : Nat) : BufTy := match i % 128 with
  | 0 => ⟨S32x4096x256, .f32⟩
  | 1 => ⟨S3x256, .f32⟩
  | 2 => ⟨S3x256, .f32⟩
  | 3 => ⟨S3, .f32⟩
  | 4 => ⟨S_, .f32⟩
  | 5 => ⟨S32x4096, .f32⟩
  | 6 => ⟨S32x4096x1, .f32⟩
  | 7 => ⟨S_, .f32⟩
  | 8 => ⟨S32x4096x1, .f32⟩
  | 9 => ⟨S32x4096x1, .f32⟩
  | 10 => ⟨S_, .i32⟩
  | 11 => ⟨S_, .f32⟩
  | 12 => ⟨S32x4096, .f32⟩
  | 13 => ⟨S32x4096x1, .f32⟩
  | 14 => ⟨S_, .f32⟩
  | 15 => ⟨S32x4096x1, .f32⟩
  | 16 => ⟨S32x4096x1, .f32⟩
  | 17 => ⟨S32x4096x256, .f32⟩
  | 18 => ⟨S32x4096x256, .f32⟩
  | 19 => ⟨S32x4096x256, .f32⟩
  | 20 => ⟨S_, .f32⟩
  | 21 => ⟨S_, .f32⟩
  | 22 => ⟨S_, .f32⟩
  | 23 => ⟨S_, .f32⟩
  | 24 => ⟨S32x4096, .f32⟩
  | 25 => ⟨S32x4096x1, .f32⟩
  | 26 => ⟨S32x4096x1, .f32⟩
  | 27 => ⟨S32x4096x1, .f32⟩
  | 28 => ⟨S_, .f32⟩
  | 29 => ⟨S_, .i1⟩
  | 30 => ⟨S_, .f32⟩
  | 31 => ⟨S_, .f32⟩
  | 32 => ⟨S32x4096x1, .f32⟩
  | 33 => ⟨S32x4096x1, .f32⟩
  | 34 => ⟨S32x4096x256, .f32⟩
  | 35 => ⟨S32x4096x256, .f32⟩
  | 36 => ⟨S_, .f32⟩
  | 37 => ⟨S32x4096x1, .f32⟩
  | 38 => ⟨S32x4096x1, .f32⟩
  | 39 => ⟨S32x4096x1, .f32⟩
  | 40 => ⟨S32x4096x256, .f32⟩
  | 41 => ⟨S32x4096x256, .f32⟩
  | 42 => ⟨S_, .f32⟩
  | 43 => ⟨S_, .f32⟩
  | 44 => ⟨S_, .f32⟩
  | 45 => ⟨S_, .f32⟩
  | 46 => ⟨S1, .f32⟩
  | 47 => ⟨S3, .f32⟩
  | 48 => ⟨S3, .f32⟩
  | 49 => ⟨S3, .f32⟩
  | 50 => ⟨S_, .f32⟩
  | 51 => ⟨S_, .f32⟩
  | 52 => ⟨S1, .f32⟩
  | 53 => ⟨S3, .f32⟩
  | 54 => ⟨S3, .f32⟩
  | 55 => ⟨S4096, .i32⟩
  | 56 => ⟨S_, .f32⟩
  | 57 => ⟨S32x4096x256, .f32⟩
  | 58 => ⟨S_, .i32⟩
  | 59 => ⟨S4096, .i32⟩
  | 60 => ⟨S4096, .i1⟩
  | 61 => ⟨S_, .i32⟩
  | 62 => ⟨S4096, .i32⟩
  | 63 => ⟨S4096, .i1⟩
  | 64 => ⟨S4096, .i1⟩
  | 65 => ⟨S4096, .f32⟩
  | 66 => ⟨S1x4096x1, .f32⟩
  | 67 => ⟨S1x256, .f32⟩
  | 68 => ⟨S256, .f32⟩
  | 69 => ⟨S1x1x256, .f32⟩
  | 70 => ⟨S32x4096x256, .f32⟩
  | 71 => ⟨S32x4096x256, .f32⟩
  | 72 => ⟨S1x256, .f32⟩
  | 73 => ⟨S256, .f32⟩
  | 74 => ⟨S1x1x256, .f32⟩
  | 75 => ⟨S32x4096x256, .f32⟩
  | 76 => ⟨S32x4096x256, .f32⟩
  | 77 => ⟨S32x4096x256, .f32⟩
  | 78 => ⟨S32x4096x256, .f32⟩
  | 79 => ⟨S1, .f32⟩
  | 80 => ⟨S_, .f32⟩
  | 81 => ⟨S32x4096x256, .f32⟩
  | 82 => ⟨S32x4096x256, .f32⟩
  | 83 => ⟨S32x4096x256, .f32⟩
  | 84 => ⟨S_, .i32⟩
  | 85 => ⟨S4096, .i32⟩
  | 86 => ⟨S4096, .i1⟩
  | 87 => ⟨S_, .i32⟩
  | 88 => ⟨S4096, .i32⟩
  | 89 => ⟨S4096, .i1⟩
  | 90 => ⟨S4096, .i1⟩
  | 91 => ⟨S4096, .f32⟩
  | 92 => ⟨S1x4096x1, .f32⟩
  | 93 => ⟨S1x256, .f32⟩
  | 94 => ⟨S256, .f32⟩
  | 95 => ⟨S1x1x256, .f32⟩
  | 96 => ⟨S32x4096x256, .f32⟩
  | 97 => ⟨S32x4096x256, .f32⟩
  | 98 => ⟨S1x256, .f32⟩
  | 99 => ⟨S256, .f32⟩
  | 100 => ⟨S1x1x256, .f32⟩
  | 101 => ⟨S32x4096x256, .f32⟩
  | 102 => ⟨S32x4096x256, .f32⟩
  | 103 => ⟨S32x4096x256, .f32⟩
  | 104 => ⟨S32x4096x256, .f32⟩
  | 105 => ⟨S1, .f32⟩
  | 106 => ⟨S_, .f32⟩
  | 107 => ⟨S32x4096x256, .f32⟩
  | 108 => ⟨S32x4096x256, .f32⟩
  | 109 => ⟨S32x4096x256, .f32⟩
  | 110 => ⟨S_, .i32⟩
  | 111 => ⟨S4096, .i32⟩
  | 112 => ⟨S4096, .i1⟩
  | 113 => ⟨S_, .i32⟩
  | 114 => ⟨S4096, .i32⟩
  | 115 => ⟨S4096, .i1⟩
  | 116 => ⟨S4096, .i1⟩
  | 117 => ⟨S4096, .f32⟩
  | 118 => ⟨S1x4096x1, .f32⟩
  | 119 => ⟨S1x256, .f32⟩
  | 120 => ⟨S256, .f32⟩
  | 121 => ⟨S1x1x256, .f32⟩
  | 122 => ⟨S32x4096x256, .f32⟩
  | 123 => ⟨S32x4096x256, .f32⟩
  | 124 => ⟨S1x256, .f32⟩
  | 125 => ⟨S256, .f32⟩
  | 126 => ⟨S1x1x256, .f32⟩
  | 127 => ⟨S32x4096x256, .f32⟩
  | _ => ⟨S32x4096x256, .f32⟩

abbrev hbmTy0_1 (i : Nat) : BufTy := match i % 128 with
  | 0 => ⟨S32x4096x256, .f32⟩
  | 1 => ⟨S32x4096x256, .f32⟩
  | 2 => ⟨S32x4096x256, .f32⟩
  | 3 => ⟨S1, .f32⟩
  | 4 => ⟨S_, .f32⟩
  | 5 => ⟨S32x4096x256, .f32⟩
  | 6 => ⟨S32x4096x256, .f32⟩
  | 7 => ⟨S32x4096x256, .f32⟩
  | _ => ⟨S32x4096x256, .f32⟩

abbrev hbmTy (i : Nat) : BufTy := match i / 128 with
  | 0 => hbmTy0_0 i
  | 1 => hbmTy0_1 i
  | _ => ⟨S32x4096x256, .f32⟩

abbrev bufTy : (tb : Table) → Fin (tcTables nBuf tb) → BufTy
  | .hbm, ⟨i, _⟩ => hbmTy i
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_cst_3 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_4 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_5 : Ref sig .tc := ⟨.hbm, 56, rfl⟩
abbrev main_v23 : Ref sig .tc := ⟨.hbm, 57, rfl⟩
abbrev main_c_6 : Ref sig .tc := ⟨.hbm, 58, rfl⟩
abbrev main_v24 : Ref sig .tc := ⟨.hbm, 59, rfl⟩
abbrev main_v25 : Ref sig .tc := ⟨.hbm, 60, rfl⟩
abbrev main_c_7 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_8 : Ref sig .tc := ⟨.hbm, 84, rfl⟩
abbrev main_v48 : Ref sig .tc := ⟨.hbm, 85, rfl⟩
abbrev main_v49 : Ref sig .tc := ⟨.hbm, 86, rfl⟩
abbrev main_c_9 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_10 : Ref sig .tc := ⟨.hbm, 110, rfl⟩
abbrev main_v72 : Ref sig .tc := ⟨.hbm, 111, rfl⟩
abbrev main_v73 : Ref sig .tc := ⟨.hbm, 112, rfl⟩
abbrev main_c_11 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]

class Facts₀ : Prop where
  reducesTo_S32x4096x256_S32x4096_d2 : S32x4096x256.ReducesTo [2] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S32x4096x1_S32x4096x256_0_1_2 : S32x4096x1.BroadcastsInDim S32x4096x256 (![0, 1, 2] : Fin 3 → Fin S32x4096x256.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S_S32x4096x256 : S_.BroadcastsInDim S32x4096x256 (![] : Fin 0 → Fin S32x4096x256.rank)
  bcast_S_S4096 : S_.BroadcastsInDim S4096 (![] : Fin 0 → Fin S4096.rank)
  bcast_S4096_S1x4096x1_1 : S4096.BroadcastsInDim S1x4096x1 (![1] : Fin 1 → Fin S1x4096x1.rank)
  slices_S3x256_S1x256_0_0 : S3x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  bcast_S1x4096x1_S32x4096x256_0_1_2 : S1x4096x1.BroadcastsInDim S32x4096x256 (![0, 1, 2] : Fin 3 → Fin S32x4096x256.rank)
  slices_S3_S1_0 : S3.Slices ![0] S1
  shapeCasts_S1_S_ : S1.ShapeCasts S_
  slices_S3x256_S1x256_1_0 : S3x256.Slices ![1, 0] S1x256
  slices_S3_S1_1 : S3.Slices ![1] S1
  slices_S3x256_S1x256_2_0 : S3x256.Slices ![2, 0] S1x256
  slices_S3_S1_2 : S3.Slices ![2] S1

variable [Facts₀]

class Facts : Prop extends Facts₀ where

variable [Facts]
-- ==== Proof.Spec.lean ====
/-
  The mathematics both programs compute, index by index on the extended reals, and the two host chains they share.

  For a row `r : Fin 256 → EReal` (one batch entry at one time step, its 256 features):
    mean r = (Σₖ r k) / 256,   var r = (Σₖ (r k − mean r)²) / 256,   xhat r f = (r f − mean r) · rsqrt (var r + ε).
  The aggregation weights W = softmax of the three logits (`softW`), the window masks M a s ∈ {0, 1} (`maskV`: time step
  `s` lies in scale `a`'s valid range), the per-scale gains g a f and biases b a f.
  The kernel applies per-(s, f) tables:   xhat · (Σₐ (W a · M a s) · g a f) + Σₐ (W a · M a s) · b a f          (`outK`);
  the reference sums the scales:          Σₐ W a · ((xhat · g a f + b a f) · M a s)                              (`outR`).
  On real numbers the two agree by distributivity; sums are written in the programs' left-to-right order from 0.
-/
import Idealize.ShloMosaic.PureOps.Ideal
import Idealize.ShloMosaic.PureOps.Ideal.Laws
import Idealize.ShloMosaic.Lib.ValueIdx
import Idealize.ShloMosaic.Lib.IdealHost

noncomputable section

namespace Cert.LnAgg

open Idealize.ShloMosaic Idealize.ShloMosaic.ValueIdx
open scoped BigOperators

/-! ## Shapes (the programs' own, as literals) -/

abbrev S_ : Shape := ⟨0, ![]⟩
abbrev S1 : Shape := ⟨1, ![1]⟩
abbrev S3 : Shape := ⟨1, ![3]⟩
abbrev S4096 : Shape := ⟨1, ![4096]⟩
abbrev S3x256 : Shape := ⟨2, ![3, 256]⟩
abbrev S4096x256 : Shape := ⟨2, ![4096, 256]⟩
abbrev SX : Shape := ⟨3, ![32, 4096, 256]⟩

theorem red_S3 : S3.ReducesTo [0] S_ := by decide
theorem pos_S_ : 0 < S_.numel := by decide
theorem bc_S_S1 : S_.BroadcastsInDim S1 (![] : Fin 0 → Fin S1.rank) := by decide
theorem bc_S1_S3 : S1.BroadcastsInDim S3 (![0] : Fin 1 → Fin S3.rank) := by decide
theorem bc_S_S4096 : S_.BroadcastsInDim S4096 (![] : Fin 0 → Fin S4096.rank) := by decide

/-! ## The two shared host chains -/

/-- exp (w − max w), the softmax numerators (the maximum taken from −∞ twice, as jax prints it). -/
def softE (w : FVec Ideal S3 .f32) : FVec Ideal S3 .f32 :=
  Host.exp (subf w (broadcastInDim S3 ![0] bc_S1_S3 (broadcastInDim S1 ![] bc_S_S1
    (maximumf (constant S_ .f32 0xFF800000#32)
      (Host.reduce FloatOps.maximumf w (constant S_ .f32 0xFF800000#32) red_S3 pos_S_)))))

/-- The softmax of the three aggregation logits. -/
def softW (w : FVec Ideal S3 .f32) : FVec Ideal S3 .f32 :=
  Host.divf (softE w) (broadcastInDim S3 ![0] bc_S1_S3 (broadcastInDim S1 ![] bc_S_S1
    (Host.reduceAdd (softE w) (constant S_ .f32 0x00000000#32) red_S3 pos_S_)))

/-- The window mask of one scale over the 4096 time steps: 1 where `lo ≤ s < hi` (signed words), else 0. -/
def maskV (lo hi : BitVec 32) : FVec Ideal S4096 .f32 :=
  uitofp .f32 (andi
    (cmpi .sge (iotaInDim S4096 32 0) (broadcastInDim S4096 ![] bc_S_S4096 (constantI S_ 32 lo)))
    (cmpi .slt (iotaInDim S4096 32 0) (broadcastInDim S4096 ![] bc_S_S4096 (constantI S_ 32 hi))))

/-- Scale `a`'s mask at time step `s`: windows 5, 10, 20 over 4096 steps are valid on [2, 4094), [5, 4092), [10, 4087). -/
def maskOf (a : Fin 3) (s : Fin 4096) : EReal :=
  match a with
  | 0 => maskV 2#32 4094#32 (ix1 s)
  | 1 => maskV 5#32 4092#32 (ix1 s)
  | 2 => maskV 10#32 4087#32 (ix1 s)

/-! ## One row's normalization -/

/-- 256.0 -/
def c256 : EReal := Ideal.ofBits .f32 0x43800000#32
/-- ε, the f32 nearest 1e-5 -/
def ceps : EReal := Ideal.ofBits .f32 0x3727C5AC#32

def mean (r : Fin 256 → EReal) : EReal := Ideal.div (∑ k, r k) c256
def var (r : Fin 256 → EReal) : EReal := Ideal.div (∑ k, (r k - mean r) * (r k - mean r)) c256
def xhat (r : Fin 256 → EReal) (f : Fin 256) : EReal := (r f - mean r) * Ideal.rsqrt (var r + ceps)

/-! ## The aggregation, both ways -/

/-- A per-(s, f) coefficient table: Σₐ (W a · M a s) · g a f, summed left to right from 0. -/
def tab (W : Fin 3 → EReal) (M : Fin 3 → Fin 4096 → EReal) (g : Fin 3 → Fin 256 → EReal) (s : Fin 4096) (f : Fin 256) : EReal :=
  ((0 + (W 0 * M 0 s) * g 0 f) + (W 1 * M 1 s) * g 1 f) + (W 2 * M 2 s) * g 2 f

/-- The kernel's form. -/
def outK (xh : EReal) (W : Fin 3 → EReal) (M : Fin 3 → Fin 4096 → EReal) (g b : Fin 3 → Fin 256 → EReal)
    (s : Fin 4096) (f : Fin 256) : EReal :=
  xh * tab W M g s f + tab W M b s f

/-- The reference's form. -/
def outR (xh : EReal) (W : Fin 3 → EReal) (M : Fin 3 → Fin 4096 → EReal) (g b : Fin 3 → Fin 256 → EReal)
    (s : Fin 4096) (f : Fin 256) : EReal :=
  ((0 + W 0 * ((xh * g 0 f + b 0 f) * M 0 s)) + W 1 * ((xh * g 1 f + b 1 f) * M 1 s)) + W 2 * ((xh * g 2 f + b 2 f) * M 2 s)

/-! ## The whole arrays -/

/-- Row (b, s) of the input. -/
def rowOf (x : FVec Ideal SX .f32) (b : Fin 32) (s : Fin 4096) : Fin 256 → EReal := fun k => x (ix3 b s k)

def Wof (w : FVec Ideal S3 .f32) : Fin 3 → EReal := fun a => softW w (ix1 a)
def rows2 (g : FVec Ideal S3x256 .f32) : Fin 3 → Fin 256 → EReal := fun a f => g (ix2 a f)

/-- The result at (b, s, f), the kernel's way. -/
def GatK (x : FVec Ideal SX .f32) (γ β : FVec Ideal S3x256 .f32) (w : FVec Ideal S3 .f32) (b : Fin 32) (s : Fin 4096) (f : Fin 256) : EReal :=
  outK (xhat (rowOf x b s) f) (Wof w) maskOf (rows2 γ) (rows2 β) s f

/-- The result at (b, s, f), the reference's way. -/
def GatR (x : FVec Ideal SX .f32) (γ β : FVec Ideal S3x256 .f32) (w : FVec Ideal S3 .f32) (b : Fin 32) (s : Fin 4096) (f : Fin 256) : EReal :=
  outR (xhat (rowOf x b s) f) (Wof w) maskOf (rows2 γ) (rows2 β) s f

/-- The result array (the kernel's way); both programs end at it. -/
def G (x : FVec Ideal SX .f32) (γ β : FVec Ideal S3x256 .f32) (w : FVec Ideal S3 .f32) : FVec Ideal SX .f32 :=
  fun i => GatK x γ β w (i 0) (i 1) (i 2)

/-- The same array written the reference's way (equal to `G` on real inputs). -/
def GR (x : FVec Ideal SX .f32) (γ β : FVec Ideal S3x256 .f32) (w : FVec Ideal S3 .f32) : FVec Ideal SX .f32 :=
  fun i => GatR x γ β w (i 0) (i 1) (i 2)

/-- An array all of whose entries are real numbers. -/
def AllReal {s : Shape} (v : s.Idx → EReal) : Prop := ∀ i, ∃ r : ℝ, v i = (r : EReal)

end Cert.LnAgg

end
-- ==== Proof.KernelBlocks.lean ====
/-
  The kernel's result array as one function of the three arrays its pallas_call reads.

  The call tiles the sequence axis: grid point t (of 32) stages rows 128·t … 128·t + 127 of the input x (all 32 batch
  entries, all 256 features) and of the two [4096, 256] coefficient tables A and B, and writes back the same rows of the
  result. Inside a block every (batch, row) pair is normalized over its 256 features —
      mean = (Σₖ x k) / 256,  var = (Σₖ (x k − mean)²) / 256,  x̂ f = (x f − mean) · rsqrt (var + ε)
  — and the block holds x̂ · A + B entry by entry. A row's sums only ever run over the feature axis, which a block holds
  whole, so block t of the result is block t of ONE whole-array function (`arrOf`); the 32 blocks cover the array.
-/
import proofs.«110902_j52630529245619_1_alg».proof.Proof.Gen.KernelIdeal.Value
import proofs.«110902_j52630529245619_1_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.KernelIdeal.Value

/-! ## One block, entry by entry -/

theorem hz3 : (![0, 0, 0] : Fin 3 → Nat) = fun _ => 0 := funext fun a => by fin_cases a <;> rfl
theorem hz2 : (![0, 0] : Fin 2 → Nat) = fun _ => 0 := funext fun a => by fin_cases a <;> rfl

/-- The feature-axis index over (b, r) with feature k inserted is (b, r, k). -/
theorem lift_eq (b : Fin 32) (r : Fin 128) (k : Fin 256) :
    (reduces_S32x128x256_S32x128 : S32x128x256.Reduces [2] S32x128).lift (ix2 b r) k = ix3 b r k := by
  funext a
  apply Fin.ext
  match a with
  | ⟨0, _⟩ => rfl
  | ⟨1, _⟩ => rfl
  | ⟨2, _⟩ => rfl

/-- A [32, 128] row statistic divided by a splat constant and broadcast along the features reads, at (b, r, k), the
    statistic at (b, r) divided by the constant. -/
theorem bcast_stat_at (u : FVec Ideal S32x128 .f32) (cst : EReal) (b : Fin 32) (r : Fin 128) (k : Fin 256) :
    (broadcastTo S32x128x256 (divf (shapeCast S32x128x1 u shapeCasts_S32x128_S32x128x1) (broadcast S32x128x1 cst))
      broadcasts_S32x128x1_S32x128x256) (ix3 b r k) = Ideal.div (u (ix2 b r)) cst := by
  refine (broadcastTo_apply _ _ (ix3 b r k) (ix3 b r (0 : Fin 1)) (fun a => ?_)).trans ?_
  · match a with
    | ⟨0, _⟩ => show b.val = (if (32 : Nat) = 1 then 0 else b.val); rw [if_neg (by decide)]
    | ⟨1, _⟩ => show r.val = (if (128 : Nat) = 1 then 0 else r.val); rw [if_neg (by decide)]
    | ⟨2, _⟩ => show 0 = (if (1 : Nat) = 1 then 0 else k.val); rw [if_pos rfl]
  · show Ideal.div ((shapeCast S32x128x1 u shapeCasts_S32x128_S32x128x1) (ix3 b r (0 : Fin 1))) cst = _
    refine congrArg (fun z => Ideal.div z cst) ?_
    exact shapeCast_apply _ _ (ix3 b r (0 : Fin 1)) (ix2 b r)
      (by rw [Shape.rowMajor_val_two, Shape.rowMajor_val_three]; show b.val * 128 + r.val = (b.val * 128 + r.val) * 1 + 0; omega)

/-- A feature-axis sum of a [32, 128, 256] block, read at (b, r): the sum over the 256 features of row (b, r). -/
theorem rowSum_at (src : FVec Ideal S32x128x256 .f32) (b : Fin 32) (r : Fin 128) :
    multiReduction (F := Ideal) .add [2] S32x128 src 0x00000000#32 reduces_S32x128x256_S32x128 (.inl rfl) rfl (ix2 b r)
      = ∑ k : Fin 256, src (ix3 b r k) :=
  (Ideal.multiReduction_add_single src 0x00000000#32 reduces_S32x128x256_S32x128 (.inl rfl) rfl (ix2 b r)).trans
    (Finset.sum_congr rfl fun k _ => congrArg src (lift_eq b r k))

/-- The block with each row's mean (its feature sum over 256) subtracted. -/
def cen (P0 : FVec Ideal S32x128x256 .f32) : FVec Ideal S32x128x256 .f32 :=
  subf P0 (broadcastTo S32x128x256 (divf (shapeCast S32x128x1
    (multiReduction (F := Ideal) .add [2] S32x128 P0 0x00000000#32 reduces_S32x128x256_S32x128 (.inl rfl) rfl) shapeCasts_S32x128_S32x128x1)
    (broadcast S32x128x1 (Scalar.ofBits .f32 0x43800000#32))) broadcasts_S32x128x1_S32x128x256)

/-- The centred block at (b, r, k) is the entry less its row's mean. -/
theorem cen_at (P0 : FVec Ideal S32x128x256 .f32) (b : Fin 32) (r : Fin 128) (k : Fin 256) :
    cen P0 (ix3 b r k) = P0 (ix3 b r k) - Cert.LnAgg.mean (fun k => P0 (ix3 b r k)) := by
  show P0 (ix3 b r k) - (broadcastTo S32x128x256 (divf (shapeCast S32x128x1
    (multiReduction (F := Ideal) .add [2] S32x128 P0 0x00000000#32 reduces_S32x128x256_S32x128 (.inl rfl) rfl) shapeCasts_S32x128_S32x128x1)
    (broadcast S32x128x1 (Scalar.ofBits .f32 0x43800000#32))) broadcasts_S32x128x1_S32x128x256) (ix3 b r k) = _
  rw [bcast_stat_at, rowSum_at]
  rfl

/-- The feature sum of the centred block's squares at (b, r). -/
theorem sqSum_at (P0 : FVec Ideal S32x128x256 .f32) (b : Fin 32) (r : Fin 128) :
    multiReduction (F := Ideal) .add [2] S32x128 (mulf (cen P0) (cen P0)) 0x00000000#32 reduces_S32x128x256_S32x128 (.inl rfl) rfl (ix2 b r)
      = ∑ k : Fin 256, (P0 (ix3 b r k) - Cert.LnAgg.mean (fun k => P0 (ix3 b r k)))
          * (P0 (ix3 b r k) - Cert.LnAgg.mean (fun k => P0 (ix3 b r k))) :=
  (rowSum_at (mulf (cen P0) (cen P0)) b r).trans (Finset.sum_congr rfl fun k _ => by
    show cen P0 (ix3 b r k) * cen P0 (ix3 b r k) = _
    rw [cen_at])

/-- What a point leaves in the result block at (b, r, f), over arbitrary loaded blocks: the row (b, r) of the first
    normalized over its features, times the second at (r, f), plus the third at (r, f). -/
theorem E3_at (P0 : FVec Ideal S32x128x256 .f32) (P1 P2 : FVec Ideal S128x256 .f32) (b : Fin 32) (r : Fin 128) (f : Fin 256) :
    E3 (F := Ideal) P0 P1 P2 (ix3 b r f) = Cert.LnAgg.xhat (fun k => P0 (ix3 b r k)) f * P1 (ix2 r f) + P2 (ix2 r f) := by
  have i0 : ix3_0 (ix3 b r f) = ix3 b r f := by
    funext a; match a with | ⟨0, _⟩ => rfl | ⟨1, _⟩ => rfl | ⟨2, _⟩ => rfl
  have i1 : ix3_1 (ix3 b r f) = ix2 b r := by
    funext a; match a with | ⟨0, _⟩ => rfl | ⟨1, _⟩ => rfl
  have i2 : ix3_2 (ix3 b r f) = ix2 b r := by
    funext a; match a with | ⟨0, _⟩ => rfl | ⟨1, _⟩ => rfl
  have i3 : ix3_3 (ix3 b r f) = ix2 r f := by
    funext a; match a with | ⟨0, _⟩ => rfl | ⟨1, _⟩ => rfl
  have i4 : ix3_4 (ix3 b r f) = ix2 r f := by
    funext a; match a with | ⟨0, _⟩ => rfl | ⟨1, _⟩ => rfl
  show (P0 (ix3_0 (ix3 b r f))
        - Ideal.div (multiReduction (F := Ideal) .add [2] S32x128 P0 0x00000000#32 reduces_S32x128x256_S32x128 (.inl rfl) rfl (ix3_1 (ix3 b r f)))
            (Ideal.ofBits .f32 0x43800000#32))
      * Ideal.rsqrt (Ideal.div (multiReduction (F := Ideal) .add [2] S32x128 (mulf (cen P0) (cen P0)) 0x00000000#32
            reduces_S32x128x256_S32x128 (.inl rfl) rfl (ix3_2 (ix3 b r f))) (Ideal.ofBits .f32 0x43800000#32)
          + Ideal.ofBits .f32 0x3727C5AC#32)
      * P1 (ix3_3 (ix3 b r f)) + P2 (ix3_4 (ix3 b r f)) = _
  rw [i0, i1, i2, i3, i4, rowSum_at, sqSum_at]
  rfl

/-- The body's result block over the three loaded blocks, entry by entry. -/
theorem out_at (x0 : FVec Ideal S32x128x256 .f32) (x1 x2 : FVec Ideal S128x256 .f32) (b : Fin 32) (r : Fin 128) (f : Fin 256) :
    out0_3 (F := Ideal) x0 x1 x2 (ix3 b r f) = Cert.LnAgg.xhat (fun k => x0 (ix3 b r k)) f * x1 (ix2 r f) + x2 (ix2 r f) := by
  unfold out0_3
  rw [canon3_eq]
  simp only [View.ld_unit_zero (S := S32x128x256) hz3, View.ld_unit_zero (S := S128x256) hz2]
  exact E3_at x0 x1 x2 b r f

/-! ## From blocks to the array -/

section Array

variable (m : (ℓ : Loc nD τ sig) → Buf (Elt Ideal) ℓ) (ρ : Dev nD → PrngReg)

/-- The three arrays the call reads, as the region finds them, and the three blocks a point stages, at their literal types. -/
abbrev xarr (c : Dev nD) : FVec Ideal S32x4096x256 .f32 := V m c main_arg0
abbrev aarr (c : Dev nD) : FVec Ideal S4096x256 .f32 := V m c main_v90
abbrev barr (c : Dev nD) : FVec Ideal S4096x256 .f32 := V m c main_v102
abbrev xblk (c : Dev nD) (t : Fin cfg0.N) : FVec Ideal S32x128x256 .f32 := iblk m c 0 t
abbrev ablk (c : Dev nD) (t : Fin cfg0.N) : FVec Ideal S128x256 .f32 := iblk m c 1 t
abbrev bblk (c : Dev nD) (t : Fin cfg0.N) : FVec Ideal S128x256 .f32 := iblk m c 2 t

/-- The whole-array function: entry (b, s, f) is row (b, s) of `x` normalized over its features, at f, times A (s, f) plus B (s, f). -/
def arrOf (x : FVec Ideal S32x4096x256 .f32) (A B : FVec Ideal S4096x256 .f32) : FVec Ideal S32x4096x256 .f32 :=
  fun i => Cert.LnAgg.xhat (fun k => x (ix3 (i 0) (i 1) k)) (i 2) * A (ix2 (i 1) (i 2)) + B (ix2 (i 1) (i 2))

theorem arrOf_at (x : FVec Ideal S32x4096x256 .f32) (A B : FVec Ideal S4096x256 .f32) (b : Fin 32) (s : Fin 4096) (f : Fin 256) :
    arrOf x A B (ix3 b s f) = Cert.LnAgg.xhat (fun k => x (ix3 b s k)) f * A (ix2 s f) + B (ix2 s f) := rfl

/-- The printed index maps, decided over the 32 grid points: the x and result windows move along axis 1 with the point,
    the table windows along axis 0; every other block index is 0. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- Row r of point t's block is row 128·t + r of the array. -/
def rowIx (t : Fin cfg0.N) (r : Fin 128) : Fin 4096 :=
  ⟨t.val * 128 + r.val, by have h := t.isLt; have hN : cfg0.N = 32 := N_0; have := r.isLt; omega⟩

/-- Point t's block of x at (b, r, k) is x at (b, 128·t + r, k). -/
theorem xblk_at (c : Dev nD) (t : Fin cfg0.N) (b : Fin 32) (r : Fin 128) (k : Fin 256) :
    xblk m c t (ix3 b r k) = xarr m c (ix3 b (rowIx t r) k) := by
  obtain ⟨e0, e1, e2, -⟩ := idx_facts t
  show V m c main_arg0 (((cfg0.win 0).blk t).view.emb (ix3 b r k)) = V m c main_arg0 (ix3 b (rowIx t r) k)
  refine congrArg (V m c main_arg0) ?_
  funext a; apply Fin.ext
  match a with
  | ⟨0, _⟩ => show win0_0.index t (0 : Fin 3) * 32 + 1 * b.val = b.val; omega
  | ⟨1, _⟩ => show win0_0.index t (1 : Fin 3) * 128 + 1 * r.val = t.val * 128 + r.val; omega
  | ⟨2, _⟩ => show win0_0.index t (2 : Fin 3) * 256 + 1 * k.val = k.val; omega

/-- Point t's block of the first table at (r, f) is the table at (128·t + r, f). -/
theorem ablk_at (c : Dev nD) (t : Fin cfg0.N) (r : Fin 128) (f : Fin 256) :
    ablk m c t (ix2 r f) = aarr m c (ix2 (rowIx t r) f) := by
  obtain ⟨-, -, -, e0, e1, -⟩ := idx_facts t
  show V m c main_v90 (((cfg0.win 1).blk t).view.emb (ix2 r f)) = V m c main_v90 (ix2 (rowIx t r) f)
  refine congrArg (V m c main_v90) ?_
  funext a; apply Fin.ext
  match a with
  | ⟨0, _⟩ => show win0_1.index t (0 : Fin 2) * 128 + 1 * r.val = t.val * 128 + r.val; omega
  | ⟨1, _⟩ => show win0_1.index t (1 : Fin 2) * 256 + 1 * f.val = f.val; omega

/-- Point t's block of the second table at (r, f) is the table at (128·t + r, f). -/
theorem bblk_at (c : Dev nD) (t : Fin cfg0.N) (r : Fin 128) (f : Fin 256) :
    bblk m c t (ix2 r f) = barr m c (ix2 (rowIx t r) f) := by
  obtain ⟨-, -, -, -, -, e0, e1, -⟩ := idx_facts t
  show V m c main_v102 (((cfg0.win 2).blk t).view.emb (ix2 r f)) = V m c main_v102 (ix2 (rowIx t r) f)
  refine congrArg (V m c main_v102) ?_
  funext a; apply Fin.ext
  match a with
  | ⟨0, _⟩ => show win0_2.index t (0 : Fin 2) * 128 + 1 * r.val = t.val * 128 + r.val; omega
  | ⟨1, _⟩ => show win0_2.index t (1 : Fin 2) * 256 + 1 * f.val = f.val; omega

/-- WHAT POINT t WRITES BACK is block t of `arrOf` of the three arrays as the region finds them. -/
theorem flushed_eq (c : Dev nD) (t : Fin cfg0.N) :
    (dats m 0 c).flushed 3 t = ((cfg0.win 3).blk t).view.read (Elt Ideal) (arrOf (xarr m c) (aarr m c) (barr m c)) := by
  rw [Value.flushed3]
  refine funext fun (j : S32x128x256.Idx) => ?_
  obtain ⟨b, r, f, rfl⟩ : ∃ (b : Fin 32) (r : Fin 128) (f : Fin 256), j = ix3 b r f := ⟨j 0, j 1, j 2, eq_ix3 j⟩
  show out0_3 (F := Ideal) (xblk m c t) (ablk m c t) (bblk m c t) (ix3 b r f)
    = arrOf (xarr m c) (aarr m c) (barr m c) (((cfg0.win 3).blk t).view.emb (ix3 b r f))
  have he : ((cfg0.win 3).blk t).view.emb (ix3 b r f) = ix3 b (rowIx t r) f := by
    obtain ⟨-, -, -, -, -, -, -, e0, e1, e2⟩ := idx_facts t
    funext a; apply Fin.ext
    match a with
    | ⟨0, _⟩ => show win0_3.index t (0 : Fin 3) * 32 + 1 * b.val = b.val; omega
    | ⟨1, _⟩ => show win0_3.index t (1 : Fin 3) * 128 + 1 * r.val = t.val * 128 + r.val; omega
    | ⟨2, _⟩ => show win0_3.index t (2 : Fin 3) * 256 + 1 * f.val = f.val; omega
  rw [he, arrOf_at]
  refine (out_at (xblk m c t) (ablk m c t) (bblk m c t) b r f).trans ?_
  rw [ablk_at, bblk_at]
  refine congrArg (fun z => z * aarr m c (ix2 (rowIx t r) f) + barr m c (ix2 (rowIx t r) f)) ?_
  exact congrArg (fun row => Cert.LnAgg.xhat row f) (funext fun k => xblk_at m c t b r k)

/-- An index of the array is in point t's block iff each coordinate is in the block's range on its axis. -/
theorem mem_blk (t : Fin cfg0.N) (i : S32x4096x256.Idx) :
    i ∈ ((cfg0.win 3).blk t).view.set ↔ ∀ a : Fin 3, win0_3.index t a * S32x128x256.size a ≤ (i a).val
      ∧ (i a).val < win0_3.index t a * S32x128x256.size a + S32x128x256.size a := by
  show i ∈ ((View.whole main_v103).slice (win0_3.rect t)).set ↔ _
  rw [View.set_slice_whole, Rect.mem_set_unit]
  exact Iff.rfl

/-- Every index of the result lies in the block of the point its row falls in: 4096 = 32 · 128. -/
theorem cover (i : S32x4096x256.Idx) :
    ∃ t : Fin cfg0.N, (cfg0.win 3).flush t = true ∧ i ∈ ((cfg0.win 3).blk t).view.set := by
  have h0 : (i 0).val < 32 := (i 0).isLt
  have h1 : (i 1).val < 4096 := (i 1).isLt
  have h2 : (i 2).val < 256 := (i 2).isLt
  have hN : cfg0.N = 32 := N_0
  obtain ⟨-, -, -, -, -, -, -, e0, e1, e2⟩ := idx_facts ⟨(i 1).val / 128, by omega⟩
  refine ⟨⟨(i 1).val / 128, by omega⟩, flush0_3 _, ?_⟩
  rw [mem_blk]
  intro a
  match a with
  | ⟨0, _⟩ =>
    show win0_3.index ⟨(i 1).val / 128, _⟩ (0 : Fin 3) * 32 ≤ (i 0).val ∧ (i 0).val < win0_3.index ⟨(i 1).val / 128, _⟩ (0 : Fin 3) * 32 + 32
    omega
  | ⟨1, _⟩ =>
    show win0_3.index ⟨(i 1).val / 128, _⟩ (1 : Fin 3) * 128 ≤ (i 1).val ∧ (i 1).val < win0_3.index ⟨(i 1).val / 128, _⟩ (1 : Fin 3) * 128 + 128
    simp only [] at e1
    omega
  | ⟨2, _⟩ =>
    show win0_3.index ⟨(i 1).val / 128, _⟩ (2 : Fin 3) * 256 ≤ (i 2).val ∧ (i 2).val < win0_3.index ⟨(i 1).val / 128, _⟩ (2 : Fin 3) * 256 + 256
    omega

/-- THE RESULT ARRAY after the run. -/
theorem final (c : Dev nD) : (dats m 0 c).arrAt 3 cfg0.N = arrOf (xarr m c) (aarr m c) (barr m c) :=
  (dats m 0 c).arrAt_eq_of_cover 3 (arrOf (xarr m c) (aarr m c) (barr m c)) (fun t _ => flushed_eq m c t) cover

/-- The kernel's run with its result array named. -/
theorem run : θ_run defs (onTc (τ := τ) (main (F := Ideal))) ⟨m, fun _ => 0, ρ⟩ fun r => ∀ c : Dev nD,
      r.2.mem ((c : Thread nD τ).loc main_v103) = arrOf (xarr m c) (aarr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Array

end Cert.KernelIdeal.Blocks

end
-- ==== Proof.KernelTables.lean ====
/-
  The two coefficient tables the host computes before the region, read index by index.

  From the three logits w the host forms W = softmax w; for each scale a ∈ {0, 1, 2} it forms the window mask M a over
  the 4096 time steps (1 on [2, 4094), [5, 4092), [10, 4087), else 0), multiplies W a · M a s along the time axis,
  broadcasts that column across the 256 features, multiplies by row a of a [3, 256] coefficient array g, and adds the
  three products left to right onto the zero array:
      T s f = ((0 + (W 0 · M 0 s) · g 0 f) + (W 1 · M 1 s) · g 1 f) + (W 2 · M 2 s) · g 2 f.
  With g the gains this is the first table, with g the biases the second. Each layout step (slice, reshape, broadcast)
  reads one element of its operand, so the array term at (s, f) is the specification's `tab` at (s, f).
-/
import proofs.«110902_j52630529245619_1_alg».proof.Proof.Gen.KernelIdeal.Frame
import proofs.«110902_j52630529245619_1_alg».proof.Proof.Spec
import Idealize.ShloMosaic.Shape
import Idealize.ShloMosaic.PureOps.Ideal.Laws
import Idealize.ShloMosaic.Lib.StableHlo.Run
import Idealize.ShloMosaic.Lib.ValueIdx
import Idealize.ShloMosaic.Lib.IdealHost
import Idealize.ShloMosaic.Lib.Pipeline.Value

noncomputable section

namespace Cert.KernelIdeal.Tables

open Idealize.ShloMosaic Idealize.ShloMosaic.TcCoe Idealize.ShloMosaic.ValueIdx
open Idealize.ShloMosaic.StableHlo (after_cons after_nil)

variable (m : (ℓ : Loc nD τ sig) → Buf (Elt Ideal) ℓ) (c : Dev nD)

/-! ## The operations' term, through named stages -/

/-- One scale's contribution as an array: the scale's softmax weight (entry `a` of `W`, sliced and reshaped to a
    scalar) times its window mask, along the 4096 time steps, times row `a` of the coefficients, along the 256 features. -/
def scaleT (a : Nat) (h1 : S3.Slices ![a] S1) (h2 : S3x256.Slices ![a, 0] S1x256)
    (W : FVec Ideal S3 .f32) (M : FVec Ideal S4096 .f32) (g : FVec Ideal S3x256 .f32) : FVec Ideal S4096x256 .f32 :=
  mulf
    (broadcastInDim S4096x256 ![0, 1] Gen.bcast_S4096x1_S4096x256_0_1
      (mulf
        (broadcastInDim S4096x1 ![] Gen.bcast_S_S4096x1
          (shapeCast S_ (extractStridedSlice S1 ![a] W h1) Gen.shapeCasts_S1_S_))
        (broadcastInDim S4096x1 ![0] Gen.bcast_S4096_S4096x1_0 M)))
    (broadcastInDim S4096x256 ![0, 1] Gen.bcast_S1x256_S4096x256_0_1
      (broadcastInDim S1x256 ![1] Gen.bcast_S256_S1x256_1
        (shapeCast S256 (extractStridedSlice S1x256 ![a, 0] g h2) Gen.shapeCasts_S1x256_S256)))

/-- A coefficient table as an array: the three scales' contributions added left to right onto the zero array. -/
def tabT (W : FVec Ideal S3 .f32) (g : FVec Ideal S3x256 .f32) : FVec Ideal S4096x256 .f32 :=
  addf (addf (addf (broadcastInDim S4096x256 ![] Gen.bcast_S_S4096x256 (constant S_ .f32 0x00000000#32))
      (scaleT 0 Gen.slices_S3_S1_0 Gen.slices_S3x256_S1x256_0_0 W (Cert.LnAgg.maskV 2#32 4094#32) g))
      (scaleT 1 Gen.slices_S3_S1_1 Gen.slices_S3x256_S1x256_1_0 W (Cert.LnAgg.maskV 5#32 4092#32) g))
      (scaleT 2 Gen.slices_S3_S1_2 Gen.slices_S3x256_S1x256_2_0 W (Cert.LnAgg.maskV 10#32 4087#32) g)

/-! ## One scale's contribution read at (s, f) -/

theorem scaleT_apply (a : Nat) (ha : a < 3) (h1 : S3.Slices ![a] S1) (h2 : S3x256.Slices ![a, 0] S1x256)
    (W : FVec Ideal S3 .f32) (M : FVec Ideal S4096 .f32) (g : FVec Ideal S3x256 .f32) (s : Fin 4096) (f : Fin 256) :
    scaleT a h1 h2 W M g (ix2 s f) = (W (ix1 (⟨a, ha⟩ : Fin 3)) * M (ix1 s)) * g (ix2 (⟨a, ha⟩ : Fin 3) f) := by
  unfold scaleT
  rw [mulf_apply]
  rw [broadcastInDim_apply (s := S4096x1) ![0, 1] Gen.bcast_S4096x1_S4096x256_0_1 _ (ix2 s f) (ix2 s (0 : Fin 1))
    (fun b => match b with | ⟨0, _⟩ => rfl | ⟨1, _⟩ => rfl)]
  rw [mulf_apply]
  rw [broadcastInDim_scalar_apply]
  rw [shapeCast_apply (s := S1) _ Gen.shapeCasts_S1_S_ ix0 (ix1 (0 : Fin 1)) (by rw [Shape.rowMajor_val_one]; rfl)]
  rw [extractStridedSlice_apply (s := S3) ![a] W h1 (ix1 (0 : Fin 1)) (ix1 (⟨a, ha⟩ : Fin 3))
    (fun b => match b with | ⟨0, _⟩ => rfl)]
  rw [broadcastInDim_apply (s := S4096) ![0] Gen.bcast_S4096_S4096x1_0 M (ix2 s (0 : Fin 1)) (ix1 s)
    (fun b => match b with | ⟨0, _⟩ => rfl)]
  rw [broadcastInDim_apply (s := S1x256) ![0, 1] Gen.bcast_S1x256_S4096x256_0_1 _ (ix2 s f) (ix2 (0 : Fin 1) f)
    (fun b => match b with | ⟨0, _⟩ => rfl | ⟨1, _⟩ => rfl)]
  rw [broadcastInDim_apply (s := S256) ![1] Gen.bcast_S256_S1x256_1 _ (ix2 (0 : Fin 1) f) (ix1 f)
    (fun b => match b with | ⟨0, _⟩ => rfl)]
  rw [shapeCast_apply (s := S1x256) _ Gen.shapeCasts_S1x256_S256 (ix1 f) (ix2 (0 : Fin 1) f)
    (by rw [Shape.rowMajor_val_two, Shape.rowMajor_val_one]; show 0 * 256 + f.val = f.val; omega)]
  rw [extractStridedSlice_apply (s := S3x256) ![a, 0] g h2 (ix2 (0 : Fin 1) f) (ix2 (⟨a, ha⟩ : Fin 3) f)
    (fun b => match b with | ⟨0, _⟩ => rfl | ⟨1, _⟩ => by show f.val = 0 + f.val; omega)]

/-! ## A table read at (s, f) -/

theorem tabT_apply (w : FVec Ideal S3 .f32) (g : FVec Ideal S3x256 .f32) (s : Fin 4096) (f : Fin 256) :
    tabT (Cert.LnAgg.softW w) g (ix2 s f)
      = Cert.LnAgg.tab (Cert.LnAgg.Wof w) Cert.LnAgg.maskOf (Cert.LnAgg.rows2 g) s f := by
  unfold tabT
  rw [addf_apply, addf_apply, addf_apply,
    scaleT_apply 0 (by omega), scaleT_apply 1 (by omega), scaleT_apply 2 (by omega),
    broadcastInDim_scalar_apply, constant_apply, Ideal.ofBits_zero_f32]
  rfl

/-! ## The two buffers as the region finds them -/

set_option maxHeartbeats 4000000 in
/-- The first table's buffer holds the operations' term over the gains. -/
theorem V90_eq : (Gen.V (F := Ideal) m c main_v90 : S4096x256.Idx → EReal)
    = tabT (Cert.LnAgg.softW (m ((c : Thread nD τ).loc main_arg3))) (m ((c : Thread nD τ).loc main_arg1)) := by
  dsimp only [Gen.V, Gen.hostOps0]
  after_results_simp
  rfl

set_option maxHeartbeats 4000000 in
/-- The second table's buffer holds the operations' term over the biases. -/
theorem V102_eq : (Gen.V (F := Ideal) m c main_v102 : S4096x256.Idx → EReal)
    = tabT (Cert.LnAgg.softW (m ((c : Thread nD τ).loc main_arg3))) (m ((c : Thread nD τ).loc main_arg2)) := by
  dsimp only [Gen.V, Gen.hostOps0]
  after_results_simp
  rfl

/-- The first coefficient table at (s, f): the gains' table of the specification. -/
theorem tableA_at (s : Fin 4096) (f : Fin 256) :
    Gen.V (F := Ideal) m c main_v90 (ix2 s f)
      = Cert.LnAgg.tab (Cert.LnAgg.Wof (m ((c : Thread nD τ).loc main_arg3))) Cert.LnAgg.maskOf
          (Cert.LnAgg.rows2 (m ((c : Thread nD τ).loc main_arg1))) s f :=
  (congrFun (V90_eq m c) (ix2 s f)).trans (tabT_apply _ _ s f)

/-- The second coefficient table at (s, f): the biases' table of the specification. -/
theorem tableB_at (s : Fin 4096) (f : Fin 256) :
    Gen.V (F := Ideal) m c main_v102 (ix2 s f)
      = Cert.LnAgg.tab (Cert.LnAgg.Wof (m ((c : Thread nD τ).loc main_arg3))) Cert.LnAgg.maskOf
          (Cert.LnAgg.rows2 (m ((c : Thread nD τ).loc main_arg2))) s f :=
  (congrFun (V102_eq m c) (ix2 s f)).trans (tabT_apply _ _ s f)

end Cert.KernelIdeal.Tables

end
-- ==== Proof.KernelValue.lean ====
/-
  The kernel's run with its result named by the shared specification: the array its blocks leave — row-normalized x
  times the first coefficient table plus the second — is `G` of the four arguments, because the region finds x as
  launched and finds in the two tables, entry by entry, the weighted sums over the three scales of the gains and of the
  biases.
-/
import proofs.«110902_j52630529245619_1_alg».proof.Proof.KernelBlocks
import proofs.«110902_j52630529245619_1_alg».proof.Proof.KernelTables

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ) (ρ : Dev nD → PrngReg)

/-- The array the blocks leave is the specification's, entry by entry. -/
theorem arrOf_eq_G (c : Dev nD) :
    arrOf (xarr m c) (aarr m c) (barr m c)
      = Cert.LnAgg.G (m ((c : Thread nD τ).loc main_arg0)) (m ((c : Thread nD τ).loc main_arg1))
          (m ((c : Thread nD τ).loc main_arg2)) (m ((c : Thread nD τ).loc main_arg3)) := by
  funext i
  obtain ⟨b, s, f, rfl⟩ : ∃ (b : Fin 32) (s : Fin 4096) (f : Fin 256), i = ix3 b s f := ⟨i 0, i 1, i 2, eq_ix3 i⟩
  rw [arrOf_at]
  show _ = Cert.LnAgg.outK (Cert.LnAgg.xhat (Cert.LnAgg.rowOf (m ((c : Thread nD τ).loc main_arg0)) b s) f)
    (Cert.LnAgg.Wof (m ((c : Thread nD τ).loc main_arg3))) Cert.LnAgg.maskOf
    (Cert.LnAgg.rows2 (m ((c : Thread nD τ).loc main_arg1))) (Cert.LnAgg.rows2 (m ((c : Thread nD τ).loc main_arg2))) s f
  unfold Cert.LnAgg.outK
  have hA : aarr m c (ix2 s f) = _ := Cert.KernelIdeal.Tables.tableA_at m c s f
  have hB : barr m c (ix2 s f) = _ := Cert.KernelIdeal.Tables.tableB_at m c s f
  rw [hA, hB]
  have hx : xarr m c = m ((c : Thread nD τ).loc main_arg0) := V_main_arg0 m c
  rw [hx]
  rfl

/-- The kernel's run: the result array is `G` of the arguments, which end unchanged. -/
theorem run_G : θ_run defs (onTc (τ := τ) (main (F := Ideal))) ⟨m, fun _ => 0, ρ⟩ fun r => ∀ c : Dev nD,
      r.2.mem ((c : Thread nD τ).loc main_v103)
        = Cert.LnAgg.G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arrOf_eq_G m c), (h c).2⟩) (run m ρ)

end Cert.KernelIdeal.Blocks

end
-- ==== Proof.RefRun.lean ====
/-
  The reference program's @main as the list of its host operations, in order, and its run read back.

  @main is 109 operations of its own around one call: the variance function's twenty operations (a sum over the 256
  features, the division by 256, the centred squares, their sum, the division by 256 − 0 with the count converted from
  the integer 0) and, inside it, the selection function's three (the fallback scalar kept at its own type, broadcast over
  the rows, the selection by the scalar test 256 − 0 > 0). A call means its callee's body on the operands, so the list
  holds the callees' operations at the call site over the buffers that call names: 132 operations in all.
  Every weakly fair execution then terminates with each buffer at the fold of the operations' results over the
  launch contents.
-/
import proofs.«110902_j52630529245619_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 132 operations, in order: its first seven, the variance function's twenty over the call's buffers, the
    selection function's three over the inner call's buffers, then @main's remaining 102. -/
abbrev ops : List (HloOp τ sig (Elt F)) :=
  [ StableHlo.nullary main_cst (constant S_ .f32 0x00000000#32),
    StableHlo.binary main_arg0 main_cst main_v0 ((fun x v => Host.reduceAdd x v reducesTo_S32x4096x256_S32x4096_d2 h_S_) : (⟨S32x4096x256, .f32⟩ : BufTy).Contents (Elt F) → (⟨S_, .f32⟩ : BufTy).Contents (Elt F) → (⟨S32x4096, .f32⟩ : BufTy).Contents (Elt F)),
    StableHlo.unary main_v0 main_v1 (broadcastInDim S32x4096x1 ![0, 1] bcast_S32x4096_S32x4096x1_0_1 : (⟨S32x4096, .f32⟩ : BufTy).Contents (Elt F) → (⟨S32x4096x1, .f32⟩ : BufTy).Contents (Elt F)),
    StableHlo.nullary main_cst_0 (constant S_ .f32 0x43800000#32),
    StableHlo.unary main_cst_0 main_v2 (broadcastInDim S32x4096x1 ![] bcast_S_S32x4096x1 : (⟨S_, .f32⟩ : BufTy).Contents (Elt F) → (⟨S32x4096x1, .f32⟩ : BufTy).Contents (Elt F)),
    StableHlo.binary main_v1 main_v2 main_v3 (Host.divf : (⟨S32x4096x1, .f32⟩ : BufTy).Contents (Elt F) → (⟨S32x4096x1, .f32⟩ : BufTy).Contents (Elt F) → (⟨S32x4096x1, .f32⟩ : BufTy).Contents (Elt F)),
    StableHlo.nullary main_c (constantI S_ 32 0#32),
    StableHlo.TRef.nullary main_call0.cst (constant S_ .f32 0x00000000#32),
    StableHlo.TRef.binary (.of main_arg0 : StableHlo.TRef sig ⟨S32x4096x256, .f32⟩) main_call0.cst main_call0.v0 (fun x v => Host.reduceAdd x v reducesTo_S32x4096x256_S32x4096_d2 h_S_),
    StableHlo.TRef.unary main_call0.v0 main_call0.v1 (broadcastInDim S32x4096x1 ![0, 1] bcast_S32x4096_S32x4096x1_0_1),
    StableHlo.TRef.nullary main_call0.cst_0 (constant S_ .f32 0x43800000#32),
    StableHlo.TRef.unary main_call0.cst_0 main_call0.v2 (broadcastInDim S32x4096x1 ![] bcast_S_S32x4096x1),
    StableHlo.TRef.binary main_call0.v1 main_call0.v2 main_call0.v3 Host.divf,
    StableHlo.TRef.unary main_call0.v3 main_call0.v4 (broadcastInDim S32x4096x256 ![0, 1, 2] bcast_S32x4096x1_S32x4096x256_0_1_2),
    StableHlo.TRef.binary (.of main_arg0 : StableHlo.TRef sig ⟨S32x4096x256, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x43800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32x4096x256_S32x4096_d2 h_S_),
    StableHlo.TRef.unary main_call0.v9 main_call0.v10 (broadcastInDim S32x4096x1 ![0, 1] bcast_S32x4096_S32x4096x1_0_1),
    StableHlo.TRef.unary main_call0.v8 main_call0.v11 (broadcastInDim S32x4096x1 ![] bcast_S_S32x4096x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0_call0.v0 id,
    StableHlo.TRef.unary main_call0_call0.v0 main_call0_call0.v1 (broadcastInDim S32x4096x1 ![] bcast_S_S32x4096x1),
    StableHlo.TRef.ternary main_call0.v13 main_call0.v12 main_call0_call0.v1 main_call0_call0.v2 (fun p a b => select (broadcastInDim S32x4096x1 ![] bcast_S_S32x4096x1 p) a b),
    StableHlo.unary main_v3 main_v5 (broadcastInDim S32x4096x256 ![0, 1, 2] bcast_S32x4096x1_S32x4096x256_0_1_2 : (⟨S32x4096x1, .f32⟩ : BufTy).Contents (Elt F) → (⟨S32x4096x256, .f32⟩ : BufTy).Contents (Elt F)),
    StableHlo.binary main_arg0 main_v5 main_v6 (subf : (⟨S32x4096x256, .f32⟩ : BufTy).Contents (Elt F) → (⟨S32x4096x256, .f32⟩ : BufTy).Contents (Elt F) → (⟨S32x4096x256, .f32⟩ : BufTy).Contents (Elt F)),
    StableHlo.nullary main_cst_1 (constant S_ .f32 0x3727C5AC#32),
    StableHlo.unary main_cst_1 main_v7 (broadcastInDim S32x4096x1 ![] bcast_S_S32x4096x1 : (⟨S_, .f32⟩ : BufTy).Contents (Elt F) → (⟨S32x4096x1, .f32⟩ : BufTy).Contents (Elt F)),
    StableHlo.binary main_v4 main_v7 main_v8 (addf : (⟨S32x4096x1, .f32⟩ : BufTy).Contents (Elt F) → (⟨S32x4096x1, .f32⟩ : BufTy).Contents (Elt F) → (⟨S32x4096x1, .f32⟩ : BufTy).Contents (Elt F)),
    StableHlo.unary main_v8 main_v9 (Host.rsqrt : (⟨S32x4096x1, .f32⟩ : BufTy).Contents (Elt F) → (⟨S32x4096x1, .f32⟩ : BufTy).Contents (Elt F)),
    StableHlo.unary main_v9 main_v10 (broadcastInDim S32x4096x256 ![0, 1, 2] bcast_S32x4096x1_S32x4096x256_0_1_2 : (⟨S32x4096x1, .f32⟩ : BufTy).Contents (Elt F) → (⟨S32x4096x256, .f32⟩ : BufTy).Contents (Elt F)),
    StableHlo.binary main_v6 main_v10 main_v11 (mulf : (⟨S32x4096x256, .f32⟩ : BufTy).Contents (Elt F) → (⟨S32x4096x256, .f32⟩ : BufTy).Contents (Elt F) → (⟨S32x4096x256, .f32⟩ : BufTy).Contents (Elt F)),
    StableHlo.nullary main_cst_2 (constant S_ .f32 0xFF800000#32),
    StableHlo.binary main_arg3 main_cst_2 main_v12 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_3 (constant S_ .f32 0xFF800000#32),
    StableHlo.binary main_cst_3 main_v12 main_v13 (maximumf : (⟨S_, .f32⟩ : BufTy).Contents (Elt F) → (⟨S_, .f32⟩ : BufTy).Contents (Elt F) → (⟨S_, .f32⟩ : BufTy).Contents (Elt F)),
    StableHlo.unary main_v13 main_v14 (broadcastInDim S1 ![] bcast_S_S1 : (⟨S_, .f32⟩ : BufTy).Contents (Elt F) → (⟨S1, .f32⟩ : BufTy).Contents (Elt F)),
    StableHlo.unary main_v14 main_v15 (broadcastInDim S3 ![0] bcast_S1_S3_0 : (⟨S1, .f32⟩ : BufTy).Contents (Elt F) → (⟨S3, .f32⟩ : BufTy).Contents (Elt F)),
    StableHlo.binary main_arg3 main_v15 main_v16 (subf : (⟨S3, .f32⟩ : BufTy).Contents (Elt F) → (⟨S3, .f32⟩ : BufTy).Contents (Elt F) → (⟨S3, .f32⟩ : BufTy).Contents (Elt F)),
    StableHlo.unary main_v16 main_v17 (Host.exp : (⟨S3, .f32⟩ : BufTy).Contents (Elt F) → (⟨S3, .f32⟩ : BufTy).Contents (Elt F)),
    StableHlo.nullary main_cst_4 (constant S_ .f32 0x00000000#32),
    StableHlo.binary main_v17 main_cst_4 main_v18 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v18 main_v19 (broadcastInDim S1 ![] bcast_S_S1 : (⟨S_, .f32⟩ : BufTy).Contents (Elt F) → (⟨S1, .f32⟩ : BufTy).Contents (Elt F)),
    StableHlo.unary main_v19 main_v20 (broadcastInDim S3 ![0] bcast_S1_S3_0 : (⟨S1, .f32⟩ : BufTy).Contents (Elt F) → (⟨S3, .f32⟩ : BufTy).Contents (Elt F)),
    StableHlo.binary main_v17 main_v20 main_v21 (Host.divf : (⟨S3, .f32⟩ : BufTy).Contents (Elt F) → (⟨S3, .f32⟩ : BufTy).Contents (Elt F) → (⟨S3, .f32⟩ : BufTy).Contents (Elt F)),
    StableHlo.nullary main_v22 (iotaInDim S4096 32 0),
    StableHlo.nullary main_cst_5 (constant S_ .f32 0x00000000#32),
    StableHlo.unary main_cst_5 main_v23 (broadcastInDim S32x4096x256 ![] bcast_S_S32x4096x256 : (⟨S_, .f32⟩ : BufTy).Contents (Elt F) → (⟨S32x4096x256, .f32⟩ : BufTy).Contents (Elt F)),
    StableHlo.nullary main_c_6 (constantI S_ 32 2#32),
    StableHlo.unary main_c_6 main_v24 (broadcastInDim S4096 ![] bcast_S_S4096 : (⟨S_, .i32⟩ : BufTy).Contents (Elt F) → (⟨S4096, .i32⟩ : BufTy).Contents (Elt F)),
    StableHlo.binary main_v22 main_v24 main_v25 (cmpi .sge : (⟨S4096, .i32⟩ : BufTy).Contents (Elt F) → (⟨S4096, .i32⟩ : BufTy).Contents (Elt F) → (⟨S4096, .i1⟩ : BufTy).Contents (Elt F)),
    StableHlo.nullary main_c_7 (constantI S_ 32 4094#32),
    StableHlo.unary main_c_7 main_v26 (broadcastInDim S4096 ![] bcast_S_S4096 : (⟨S_, .i32⟩ : BufTy).Contents (Elt F) → (⟨S4096, .i32⟩ : BufTy).Contents (Elt F)),
    StableHlo.binary main_v22 main_v26 main_v27 (cmpi .slt : (⟨S4096, .i32⟩ : BufTy).Contents (Elt F) → (⟨S4096, .i32⟩ : BufTy).Contents (Elt F) → (⟨S4096, .i1⟩ : BufTy).Contents (Elt F)),
    StableHlo.binary main_v25 main_v27 main_v28 (andi : (⟨S4096, .i1⟩ : BufTy).Contents (Elt F) → (⟨S4096, .i1⟩ : BufTy).Contents (Elt F) → (⟨S4096, .i1⟩ : BufTy).Contents (Elt F)),
    StableHlo.unary main_v28 main_v29 (uitofp .f32 : (⟨S4096, .i1⟩ : BufTy).Contents (Elt F) → (⟨S4096, .f32⟩ : BufTy).Contents (Elt F)),
    StableHlo.unary main_v29 main_v30 (broadcastInDim S1x4096x1 ![1] bcast_S4096_S1x4096x1_1 : (⟨S4096, .f32⟩ : BufTy).Contents (Elt F) → (⟨S1x4096x1, .f32⟩ : BufTy).Contents (Elt F)),
    StableHlo.unary main_arg1 main_v31 ((extractStridedSlice S1x256 ![0, 0] · slices_S3x256_S1x256_0_0) : (⟨S3x256, .f32⟩ : BufTy).Contents (Elt F) → (⟨S1x256, .f32⟩ : BufTy).Contents (Elt F)),
    StableHlo.reshape main_v31 main_v32 rfl shapeCasts_S1x256_S256,
    StableHlo.unary main_v32 main_v33 (broadcastInDim S1x1x256 ![2] bcast_S256_S1x1x256_2 : (⟨S256, .f32⟩ : BufTy).Contents (Elt F) → (⟨S1x1x256, .f32⟩ : BufTy).Contents (Elt F)),
    StableHlo.unary main_v33 main_v34 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v11 main_v34 main_v35 (mulf : (⟨S32x4096x256, .f32⟩ : BufTy).Contents (Elt F) → (⟨S32x4096x256, .f32⟩ : BufTy).Contents (Elt F) → (⟨S32x4096x256, .f32⟩ : BufTy).Contents (Elt F)),
    StableHlo.unary main_arg2 main_v36 ((extractStridedSlice S1x256 ![0, 0] · slices_S3x256_S1x256_0_0) : (⟨S3x256, .f32⟩ : BufTy).Contents (Elt F) → (⟨S1x256, .f32⟩ : BufTy).Contents (Elt F)),
    StableHlo.reshape main_v36 main_v37 rfl shapeCasts_S1x256_S256,
    StableHlo.unary main_v37 main_v38 (broadcastInDim S1x1x256 ![2] bcast_S256_S1x1x256_2 : (⟨S256, .f32⟩ : BufTy).Contents (Elt F) → (⟨S1x1x256, .f32⟩ : BufTy).Contents (Elt F)),
    StableHlo.unary main_v38 main_v39 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v35 main_v39 main_v40 (addf : (⟨S32x4096x256, .f32⟩ : BufTy).Contents (Elt F) → (⟨S32x4096x256, .f32⟩ : BufTy).Contents (Elt F) → (⟨S32x4096x256, .f32⟩ : BufTy).Contents (Elt F)),
    StableHlo.unary main_v30 main_v41 (broadcastInDim S32x4096x256 ![0, 1, 2] bcast_S1x4096x1_S32x4096x256_0_1_2 : (⟨S1x4096x1, .f32⟩ : BufTy).Contents (Elt F) → (⟨S32x4096x256, .f32⟩ : BufTy).Contents (Elt F)),
    StableHlo.binary main_v40 main_v41 main_v42 (mulf : (⟨S32x4096x256, .f32⟩ : BufTy).Contents (Elt F) → (⟨S32x4096x256, .f32⟩ : BufTy).Contents (Elt F) → (⟨S32x4096x256, .f32⟩ : BufTy).Contents (Elt F)),
    StableHlo.unary main_v21 main_v43 ((extractStridedSlice S1 ![0] · slices_S3_S1_0) : (⟨S3, .f32⟩ : BufTy).Contents (Elt F) → (⟨S1, .f32⟩ : BufTy).Contents (Elt F)),
    StableHlo.reshape main_v43 main_v44 rfl shapeCasts_S1_S_,
    StableHlo.unary main_v44 main_v45 (broadcastInDim S32x4096x256 ![] bcast_S_S32x4096x256 : (⟨S_, .f32⟩ : BufTy).Contents (Elt F) → (⟨S32x4096x256, .f32⟩ : BufTy).Contents (Elt F)),
    StableHlo.binary main_v45 main_v42 main_v46 (mulf : (⟨S32x4096x256, .f32⟩ : BufTy).Contents (Elt F) → (⟨S32x4096x256, .f32⟩ : BufTy).Contents (Elt F) → (⟨S32x4096x256, .f32⟩ : BufTy).Contents (Elt F)),
    StableHlo.binary main_v23 main_v46 main_v47 (addf : (⟨S32x4096x256, .f32⟩ : BufTy).Contents (Elt F) → (⟨S32x4096x256, .f32⟩ : BufTy).Contents (Elt F) → (⟨S32x4096x256, .f32⟩ : BufTy).Contents (Elt F)),
    StableHlo.nullary main_c_8 (constantI S_ 32 5#32),
    StableHlo.unary main_c_8 main_v48 (broadcastInDim S4096 ![] bcast_S_S4096 : (⟨S_, .i32⟩ : BufTy).Contents (Elt F) → (⟨S4096, .i32⟩ : BufTy).Contents (Elt F)),
    StableHlo.binary main_v22 main_v48 main_v49 (cmpi .sge : (⟨S4096, .i32⟩ : BufTy).Contents (Elt F) → (⟨S4096, .i32⟩ : BufTy).Contents (Elt F) → (⟨S4096, .i1⟩ : BufTy).Contents (Elt F)),
    StableHlo.nullary main_c_9 (constantI S_ 32 4092#32),
    StableHlo.unary main_c_9 main_v50 (broadcastInDim S4096 ![] bcast_S_S4096 : (⟨S_, .i32⟩ : BufTy).Contents (Elt F) → (⟨S4096, .i32⟩ : BufTy).Contents (Elt F)),
    StableHlo.binary main_v22 main_v50 main_v51 (cmpi .slt : (⟨S4096, .i32⟩ : BufTy).Contents (Elt F) → (⟨S4096, .i32⟩ : BufTy).Contents (Elt F) → (⟨S4096, .i1⟩ : BufTy).Contents (Elt F)),
    StableHlo.binary main_v49 main_v51 main_v52 (andi : (⟨S4096, .i1⟩ : BufTy).Contents (Elt F) → (⟨S4096, .i1⟩ : BufTy).Contents (Elt F) → (⟨S4096, .i1⟩ : BufTy).Contents (Elt F)),
    StableHlo.unary main_v52 main_v53 (uitofp .f32 : (⟨S4096, .i1⟩ : BufTy).Contents (Elt F) → (⟨S4096, .f32⟩ : BufTy).Contents (Elt F)),
    StableHlo.unary main_v53 main_v54 (broadcastInDim S1x4096x1 ![1] bcast_S4096_S1x4096x1_1 : (⟨S4096, .f32⟩ : BufTy).Contents (Elt F) → (⟨S1x4096x1, .f32⟩ : BufTy).Contents (Elt F)),
    StableHlo.unary main_arg1 main_v55 ((extractStridedSlice S1x256 ![1, 0] · slices_S3x256_S1x256_1_0) : (⟨S3x256, .f32⟩ : BufTy).Contents (Elt F) → (⟨S1x256, .f32⟩ : BufTy).Contents (Elt F)),
    StableHlo.reshape main_v55 main_v56 rfl shapeCasts_S1x256_S256,
    StableHlo.unary main_v56 main_v57 (broadcastInDim S1x1x256 ![2] bcast_S256_S1x1x256_2 : (⟨S256, .f32⟩ : BufTy).Contents (Elt F) → (⟨S1x1x256, .f32⟩ : BufTy).Contents (Elt F)),
    StableHlo.unary main_v57 main_v58 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v11 main_v58 main_v59 (mulf : (⟨S32x4096x256, .f32⟩ : BufTy).Contents (Elt F) → (⟨S32x4096x256, .f32⟩ : BufTy).Contents (Elt F) → (⟨S32x4096x256, .f32⟩ : BufTy).Contents (Elt F)),
    StableHlo.unary main_arg2 main_v60 ((extractStridedSlice S1x256 ![1, 0] · slices_S3x256_S1x256_1_0) : (⟨S3x256, .f32⟩ : BufTy).Contents (Elt F) → (⟨S1x256, .f32⟩ : BufTy).Contents (Elt F)),
    StableHlo.reshape main_v60 main_v61 rfl shapeCasts_S1x256_S256,
    StableHlo.unary main_v61 main_v62 (broadcastInDim S1x1x256 ![2] bcast_S256_S1x1x256_2 : (⟨S256, .f32⟩ : BufTy).Contents (Elt F) → (⟨S1x1x256, .f32⟩ : BufTy).Contents (Elt F)),
    StableHlo.unary main_v62 main_v63 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v59 main_v63 main_v64 (addf : (⟨S32x4096x256, .f32⟩ : BufTy).Contents (Elt F) → (⟨S32x4096x256, .f32⟩ : BufTy).Contents (Elt F) → (⟨S32x4096x256, .f32⟩ : BufTy).Contents (Elt F)),
    StableHlo.unary main_v54 main_v65 (broadcastInDim S32x4096x256 ![0, 1, 2] bcast_S1x4096x1_S32x4096x256_0_1_2 : (⟨S1x4096x1, .f32⟩ : BufTy).Contents (Elt F) → (⟨S32x4096x256, .f32⟩ : BufTy).Contents (Elt F)),
    StableHlo.binary main_v64 main_v65 main_v66 (mulf : (⟨S32x4096x256, .f32⟩ : BufTy).Contents (Elt F) → (⟨S32x4096x256, .f32⟩ : BufTy).Contents (Elt F) → (⟨S32x4096x256, .f32⟩ : BufTy).Contents (Elt F)),
    StableHlo.unary main_v21 main_v67 ((extractStridedSlice S1 ![1] · slices_S3_S1_1) : (⟨S3, .f32⟩ : BufTy).Contents (Elt F) → (⟨S1, .f32⟩ : BufTy).Contents (Elt F)),
    StableHlo.reshape main_v67 main_v68 rfl shapeCasts_S1_S_,
    StableHlo.unary main_v68 main_v69 (broadcastInDim S32x4096x256 ![] bcast_S_S32x4096x256 : (⟨S_, .f32⟩ : BufTy).Contents (Elt F) → (⟨S32x4096x256, .f32⟩ : BufTy).Contents (Elt F)),
    StableHlo.binary main_v69 main_v66 main_v70 (mulf : (⟨S32x4096x256, .f32⟩ : BufTy).Contents (Elt F) → (⟨S32x4096x256, .f32⟩ : BufTy).Contents (Elt F) → (⟨S32x4096x256, .f32⟩ : BufTy).Contents (Elt F)),
    StableHlo.binary main_v47 main_v70 main_v71 (addf : (⟨S32x4096x256, .f32⟩ : BufTy).Contents (Elt F) → (⟨S32x4096x256, .f32⟩ : BufTy).Contents (Elt F) → (⟨S32x4096x256, .f32⟩ : BufTy).Contents (Elt F)),
    StableHlo.nullary main_c_10 (constantI S_ 32 10#32),
    StableHlo.unary main_c_10 main_v72 (broadcastInDim S4096 ![] bcast_S_S4096 : (⟨S_, .i32⟩ : BufTy).Contents (Elt F) → (⟨S4096, .i32⟩ : BufTy).Contents (Elt F)),
    StableHlo.binary main_v22 main_v72 main_v73 (cmpi .sge : (⟨S4096, .i32⟩ : BufTy).Contents (Elt F) → (⟨S4096, .i32⟩ : BufTy).Contents (Elt F) → (⟨S4096, .i1⟩ : BufTy).Contents (Elt F)),
    StableHlo.nullary main_c_11 (constantI S_ 32 4087#32),
    StableHlo.unary main_c_11 main_v74 (broadcastInDim S4096 ![] bcast_S_S4096 : (⟨S_, .i32⟩ : BufTy).Contents (Elt F) → (⟨S4096, .i32⟩ : BufTy).Contents (Elt F)),
    StableHlo.binary main_v22 main_v74 main_v75 (cmpi .slt : (⟨S4096, .i32⟩ : BufTy).Contents (Elt F) → (⟨S4096, .i32⟩ : BufTy).Contents (Elt F) → (⟨S4096, .i1⟩ : BufTy).Contents (Elt F)),
    StableHlo.binary main_v73 main_v75 main_v76 (andi : (⟨S4096, .i1⟩ : BufTy).Contents (Elt F) → (⟨S4096, .i1⟩ : BufTy).Contents (Elt F) → (⟨S4096, .i1⟩ : BufTy).Contents (Elt F)),
    StableHlo.unary main_v76 main_v77 (uitofp .f32 : (⟨S4096, .i1⟩ : BufTy).Contents (Elt F) → (⟨S4096, .f32⟩ : BufTy).Contents (Elt F)),
    StableHlo.unary main_v77 main_v78 (broadcastInDim S1x4096x1 ![1] bcast_S4096_S1x4096x1_1 : (⟨S4096, .f32⟩ : BufTy).Contents (Elt F) → (⟨S1x4096x1, .f32⟩ : BufTy).Contents (Elt F)),
    StableHlo.unary main_arg1 main_v79 ((extractStridedSlice S1x256 ![2, 0] · slices_S3x256_S1x256_2_0) : (⟨S3x256, .f32⟩ : BufTy).Contents (Elt F) → (⟨S1x256, .f32⟩ : BufTy).Contents (Elt F)),
    StableHlo.reshape main_v79 main_v80 rfl shapeCasts_S1x256_S256,
    StableHlo.unary main_v80 main_v81 (broadcastInDim S1x1x256 ![2] bcast_S256_S1x1x256_2 : (⟨S256, .f32⟩ : BufTy).Contents (Elt F) → (⟨S1x1x256, .f32⟩ : BufTy).Contents (Elt F)),
    StableHlo.unary main_v81 main_v82 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v11 main_v82 main_v83 (mulf : (⟨S32x4096x256, .f32⟩ : BufTy).Contents (Elt F) → (⟨S32x4096x256, .f32⟩ : BufTy).Contents (Elt F) → (⟨S32x4096x256, .f32⟩ : BufTy).Contents (Elt F)),
    StableHlo.unary main_arg2 main_v84 ((extractStridedSlice S1x256 ![2, 0] · slices_S3x256_S1x256_2_0) : (⟨S3x256, .f32⟩ : BufTy).Contents (Elt F) → (⟨S1x256, .f32⟩ : BufTy).Contents (Elt F)),
    StableHlo.reshape main_v84 main_v85 rfl shapeCasts_S1x256_S256,
    StableHlo.unary main_v85 main_v86 (broadcastInDim S1x1x256 ![2] bcast_S256_S1x1x256_2 : (⟨S256, .f32⟩ : BufTy).Contents (Elt F) → (⟨S1x1x256, .f32⟩ : BufTy).Contents (Elt F)),
    StableHlo.unary main_v86 main_v87 (broadcastInDim S32x4096x256 ![0, 1, 2] bcast_S1x1x256_S32x4096x256_0_1_2 : (⟨S1x1x256, .f32⟩ : BufTy).Contents (Elt F) → (⟨S32x4096x256, .f32⟩ : BufTy).Contents (Elt F)),
    StableHlo.binary main_v83 main_v87 main_v88 (addf : (⟨S32x4096x256, .f32⟩ : BufTy).Contents (Elt F) → (⟨S32x4096x256, .f32⟩ : BufTy).Contents (Elt F) → (⟨S32x4096x256, .f32⟩ : BufTy).Contents (Elt F)),
    StableHlo.unary main_v78 main_v89 (broadcastInDim S32x4096x256 ![0, 1, 2] bcast_S1x4096x1_S32x4096x256_0_1_2 : (⟨S1x4096x1, .f32⟩ : BufTy).Contents (Elt F) → (⟨S32x4096x256, .f32⟩ : BufTy).Contents (Elt F)),
    StableHlo.binary main_v88 main_v89 main_v90 (mulf : (⟨S32x4096x256, .f32⟩ : BufTy).Contents (Elt F) → (⟨S32x4096x256, .f32⟩ : BufTy).Contents (Elt F) → (⟨S32x4096x256, .f32⟩ : BufTy).Contents (Elt F)),
    StableHlo.unary main_v21 main_v91 ((extractStridedSlice S1 ![2] · slices_S3_S1_2) : (⟨S3, .f32⟩ : BufTy).Contents (Elt F) → (⟨S1, .f32⟩ : BufTy).Contents (Elt F)),
    StableHlo.reshape main_v91 main_v92 rfl shapeCasts_S1_S_,
    StableHlo.unary main_v92 main_v93 (broadcastInDim S32x4096x256 ![] bcast_S_S32x4096x256 : (⟨S_, .f32⟩ : BufTy).Contents (Elt F) → (⟨S32x4096x256, .f32⟩ : BufTy).Contents (Elt F)),
    StableHlo.binary main_v93 main_v90 main_v94 (mulf : (⟨S32x4096x256, .f32⟩ : BufTy).Contents (Elt F) → (⟨S32x4096x256, .f32⟩ : BufTy).Contents (Elt F) → (⟨S32x4096x256, .f32⟩ : BufTy).Contents (Elt F)),
    StableHlo.binary main_v71 main_v94 main_v95 (addf : (⟨S32x4096x256, .f32⟩ : BufTy).Contents (Elt F) → (⟨S32x4096x256, .f32⟩ : BufTy).Contents (Elt F) → (⟨S32x4096x256, .f32⟩ : BufTy).Contents (Elt F)) ]

set_option maxRecDepth 4096 in
set_option maxHeartbeats 4000000 in
/-- @main is that straight line: the two windows in order, the called functions' definitions unfolded at their calls and the
    calls' records at their fields; both sides are one chain of steps once sequencing is re-associated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., nullary_bufs_sub .., binary_bufs_sub .., nullary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., nullary_bufs_sub .., nullary_bufs_sub .., unary_bufs_sub ..,
    nullary_bufs_sub .., unary_bufs_sub .., binary_bufs_sub .., nullary_bufs_sub .., unary_bufs_sub .., binary_bufs_sub ..,
    binary_bufs_sub .., unary_bufs_sub .., unary_bufs_sub .., unary_bufs_sub .., reshape_bufs_sub .., unary_bufs_sub ..,
    unary_bufs_sub .., binary_bufs_sub .., unary_bufs_sub .., reshape_bufs_sub .., unary_bufs_sub .., unary_bufs_sub ..,
    binary_bufs_sub .., unary_bufs_sub .., binary_bufs_sub .., unary_bufs_sub .., reshape_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., unary_bufs_sub .., unary_bufs_sub .., unary_bufs_sub ..,
    reshape_bufs_sub .., unary_bufs_sub .., unary_bufs_sub .., binary_bufs_sub .., unary_bufs_sub .., reshape_bufs_sub ..,
    unary_bufs_sub .., unary_bufs_sub .., binary_bufs_sub .., unary_bufs_sub .., binary_bufs_sub .., unary_bufs_sub ..,
    reshape_bufs_sub .., unary_bufs_sub .., binary_bufs_sub .., binary_bufs_sub .., nullary_bufs_sub .., unary_bufs_sub ..,
    binary_bufs_sub .., nullary_bufs_sub .., unary_bufs_sub .., binary_bufs_sub .., binary_bufs_sub .., unary_bufs_sub ..,
    unary_bufs_sub .., unary_bufs_sub .., reshape_bufs_sub .., unary_bufs_sub .., unary_bufs_sub .., binary_bufs_sub ..,
    unary_bufs_sub .., reshape_bufs_sub .., unary_bufs_sub .., unary_bufs_sub .., binary_bufs_sub .., unary_bufs_sub ..,
    binary_bufs_sub .., unary_bufs_sub .., reshape_bufs_sub .., unary_bufs_sub .., binary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference program's host chain as named stages, and each stage read at an index.

  For an input x : [32, 4096, 256], gains and biases γ, β : [3, 256] and logits w : [3], the reference holds at the end
    Σₐ W a · ((xhat · γ a f + β a f) · M a s),   summed left to right from 0,
  where xhat normalizes each row (b, s) of x by its mean and variance over the 256 features, W is the softmax of w,
  and M a s ∈ {0, 1} marks the time steps on which scale a's window is whole. The stages below compose exactly the
  host operations the program applies, in its order; the lemmas after them read each stage at coordinates (b, s, f),
  and the last two identify the whole term with the specification's array.
-/
import proofs.«110902_j52630529245619_1_alg».proof.Proof.Gen.ReferenceIdeal
import proofs.«110902_j52630529245619_1_alg».proof.Proof.Spec
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.ReferenceIdeal.Stages

open Idealize.ShloMosaic Idealize.ShloMosaic.ValueIdx
open Cert.ReferenceIdeal Cert.ReferenceIdeal.Gen
open scoped BigOperators

/-! ## The stages -/

/-- The scalar 0.0 every sum starts from. -/
def zeroS : FVec Ideal S_ .f32 := constant S_ .f32 0x00000000#32

/-- The scalar 256.0, the row length. -/
def c256S : FVec Ideal S_ .f32 := constant S_ .f32 0x43800000#32

/-- Row sums over the feature axis, from 0. -/
def sumS (x : FVec Ideal S32x4096x256 .f32) : FVec Ideal S32x4096 .f32 :=
  Host.reduceAdd x zeroS reducesTo_S32x4096x256_S32x4096_d2 h_S_

/-- Row means, kept with a unit feature axis. -/
def meanS (x : FVec Ideal S32x4096x256 .f32) : FVec Ideal S32x4096x1 .f32 :=
  Host.divf (broadcastInDim S32x4096x1 ![0, 1] bcast_S32x4096_S32x4096x1_0_1 (sumS x))
    (broadcastInDim S32x4096x1 ![] bcast_S_S32x4096x1 c256S)

/-- The input less its row mean. -/
def cenS (x : FVec Ideal S32x4096x256 .f32) : FVec Ideal S32x4096x256 .f32 :=
  subf x (broadcastInDim S32x4096x256 ![0, 1, 2] bcast_S32x4096x1_S32x4096x256_0_1_2 (meanS x))

/-- The variance's divisor: 256 less the correction 0 (an integer word converted). -/
def divisorS : FVec Ideal S_ .f32 := subf c256S (sitofp .f32 (constantI S_ 32 0#32))

/-- The sum of squared differences over the divisor. -/
def varQ (x : FVec Ideal S32x4096x256 .f32) : FVec Ideal S32x4096x1 .f32 :=
  Host.divf
    (broadcastInDim S32x4096x1 ![0, 1] bcast_S32x4096_S32x4096x1_0_1
      (Host.reduceAdd (mulf (cenS x) (cenS x)) zeroS reducesTo_S32x4096x256_S32x4096_d2 h_S_))
    (broadcastInDim S32x4096x1 ![] bcast_S_S32x4096x1 divisorS)

/-- The variance: the quotient where the divisor is positive, else the not-a-number pattern. -/
def varS (x : FVec Ideal S32x4096x256 .f32) : FVec Ideal S32x4096x1 .f32 :=
  select (broadcastInDim S32x4096x1 ![] bcast_S_S32x4096x1 (cmpf .ogt divisorS zeroS)) (varQ x)
    (broadcastInDim S32x4096x1 ![] bcast_S_S32x4096x1 (id (constant S_ .f32 0x7FC00000#32)))

/-- The normalized input: (x − mean) · rsqrt (var + ε). -/
def xhatS (x : FVec Ideal S32x4096x256 .f32) : FVec Ideal S32x4096x256 .f32 :=
  mulf (cenS x)
    (broadcastInDim S32x4096x256 ![0, 1, 2] bcast_S32x4096x1_S32x4096x256_0_1_2
      (Host.rsqrt (addf (varS x) (broadcastInDim S32x4096x1 ![] bcast_S_S32x4096x1 (constant S_ .f32 0x3727C5AC#32)))))

/-- A window mask over the time steps, broadcast to the whole array. -/
def maskS (lo hi : BitVec 32) : FVec Ideal S32x4096x256 .f32 :=
  broadcastInDim S32x4096x256 ![0, 1, 2] bcast_S1x4096x1_S32x4096x256_0_1_2
    (broadcastInDim S1x4096x1 ![1] bcast_S4096_S1x4096x1_1 (Cert.LnAgg.maskV lo hi))

/-- One row of a [3, 256] table (the slice at offsets `off`), broadcast along batch and time. -/
def rowS (off : Fin 2 → Nat) (h : S3x256.Slices off S1x256) (g : FVec Ideal S3x256 .f32) : FVec Ideal S32x4096x256 .f32 :=
  broadcastInDim S32x4096x256 ![0, 1, 2] bcast_S1x1x256_S32x4096x256_0_1_2
    (broadcastInDim S1x1x256 ![2] bcast_S256_S1x1x256_2
      (shapeCast S256 (extractStridedSlice S1x256 off g h) shapeCasts_S1x256_S256))

/-- One softmax weight (the slice at offset `off`), broadcast to the whole array. -/
def wS (off : Fin 1 → Nat) (h : S3.Slices off S1) (w : FVec Ideal S3 .f32) : FVec Ideal S32x4096x256 .f32 :=
  broadcastInDim S32x4096x256 ![] bcast_S_S32x4096x256
    (shapeCast S_ (extractStridedSlice S1 off (Cert.LnAgg.softW w) h) shapeCasts_S1_S_)

/-- One scale's term: W a · ((xhat · γ a + β a) · M a). -/
def termS (xh ga ba ma wa : FVec Ideal S32x4096x256 .f32) : FVec Ideal S32x4096x256 .f32 :=
  mulf wa (mulf (addf (mulf xh ga) ba) ma)

/-- What the reference's last buffer holds, as a function of its four arguments. -/
def refTerm (x : FVec Ideal S32x4096x256 .f32) (γ β : FVec Ideal S3x256 .f32) (w : FVec Ideal S3 .f32) :
    FVec Ideal S32x4096x256 .f32 :=
  addf
    (addf
      (addf (broadcastInDim S32x4096x256 ![] bcast_S_S32x4096x256 zeroS)
        (termS (xhatS x) (rowS ![0, 0] slices_S3x256_S1x256_0_0 γ) (rowS ![0, 0] slices_S3x256_S1x256_0_0 β)
          (maskS 2#32 4094#32) (wS ![0] slices_S3_S1_0 w)))
      (termS (xhatS x) (rowS ![1, 0] slices_S3x256_S1x256_1_0 γ) (rowS ![1, 0] slices_S3x256_S1x256_1_0 β)
        (maskS 5#32 4092#32) (wS ![1] slices_S3_S1_1 w)))
    (termS (xhatS x) (rowS ![2, 0] slices_S3x256_S1x256_2_0 γ) (rowS ![2, 0] slices_S3x256_S1x256_2_0 β)
      (maskS 10#32 4087#32) (wS ![2] slices_S3_S1_2 w))

/-! ## The two shared chains, as the program spells them -/

/-- The softmax chain with the program's own shape facts is the specification's `softW`. -/
theorem softW_printed (w : FVec Ideal S3 .f32) :
    Host.divf
      (Host.exp (subf w (broadcastInDim S3 ![0] bcast_S1_S3_0 (broadcastInDim S1 ![] bcast_S_S1
        (maximumf (constant S_ .f32 0xFF800000#32)
          (Host.reduce FloatOps.maximumf w (constant S_ .f32 0xFF800000#32) reducesTo_S3_S_d0 h_S_))))))
      (broadcastInDim S3 ![0] bcast_S1_S3_0 (broadcastInDim S1 ![] bcast_S_S1
        (Host.reduceAdd
          (Host.exp (subf w (broadcastInDim S3 ![0] bcast_S1_S3_0 (broadcastInDim S1 ![] bcast_S_S1
            (maximumf (constant S_ .f32 0xFF800000#32)
              (Host.reduce FloatOps.maximumf w (constant S_ .f32 0xFF800000#32) reducesTo_S3_S_d0 h_S_))))))
          (constant S_ .f32 0x00000000#32) reducesTo_S3_S_d0 h_S_)))
      = Cert.LnAgg.softW w := rfl

/-- The window-mask chain with the program's own shape facts is the specification's `maskV`. -/
theorem maskV_printed (lo hi : BitVec 32) :
    (uitofp .f32 (andi
      (cmpi .sge (iotaInDim S4096 32 0) (broadcastInDim S4096 ![] bcast_S_S4096 (constantI S_ 32 lo)))
      (cmpi .slt (iotaInDim S4096 32 0) (broadcastInDim S4096 ![] bcast_S_S4096 (constantI S_ 32 hi)))) : FVec Ideal S4096 .f32)
      = Cert.LnAgg.maskV lo hi := rfl

/-! ## Each stage read at an index -/

/-- A sum over the feature axis from 0, read at row (b, s): the sum of the row's 256 entries. -/
theorem rowSum_at (y : FVec Ideal S32x4096x256 .f32) (b : Fin 32) (s : Fin 4096) :
    Host.reduceAdd y zeroS reducesTo_S32x4096x256_S32x4096_d2 h_S_ (ix2 b s) = ∑ k : Fin 256, y (ix3 b s k) := by
  have hR : S32x4096x256.Reduces [2] S32x4096 := by decide
  rw [hostReduceAdd_apply, Ideal.hostReduceAdd_single reducesTo_S32x4096x256_S32x4096_d2 hR]
  show Ideal.ofBits .f32 0x00000000#32 + _ = _
  rw [Ideal.ofBits_zero_f32, zero_add]
  refine Finset.sum_congr rfl fun k _ => congrArg y ?_
  funext a
  match a with
  | ⟨0, _⟩ => exact Fin.ext rfl
  | ⟨1, _⟩ => exact Fin.ext rfl
  | ⟨2, _⟩ => exact Fin.ext rfl

/-- A per-row array given a unit feature axis reads the row's entry. -/
theorem bcRow_at {α : Type} (v : S32x4096.Idx → α) (b : Fin 32) (s : Fin 4096) (u : Fin 1) :
    broadcastInDim S32x4096x1 ![0, 1] bcast_S32x4096_S32x4096x1_0_1 v (ix3 b s u) = v (ix2 b s) :=
  broadcastInDim_apply _ _ _ _ _ (fun a => match a with | ⟨0, _⟩ => rfl | ⟨1, _⟩ => rfl)

/-- A per-row array with a unit feature axis, broadcast along the features, reads the row's entry. -/
theorem bcFeat_at {α : Type} (v : S32x4096x1.Idx → α) (b : Fin 32) (s : Fin 4096) (f : Fin 256) :
    broadcastInDim S32x4096x256 ![0, 1, 2] bcast_S32x4096x1_S32x4096x256_0_1_2 v (ix3 b s f) = v (ix3 b s (0 : Fin 1)) :=
  broadcastInDim_apply _ _ _ _ _ (fun a => match a with | ⟨0, _⟩ => rfl | ⟨1, _⟩ => rfl | ⟨2, _⟩ => rfl)

/-- The row mean is the specification's. -/
theorem meanS_at (x : FVec Ideal S32x4096x256 .f32) (b : Fin 32) (s : Fin 4096) (u : Fin 1) :
    meanS x (ix3 b s u) = Cert.LnAgg.mean (Cert.LnAgg.rowOf x b s) := by
  unfold meanS sumS
  rw [hostDivf_apply, bcRow_at, rowSum_at, broadcastInDim_scalar_apply]
  rfl

/-- The centred input at (b, s, f). -/
theorem cenS_at (x : FVec Ideal S32x4096x256 .f32) (b : Fin 32) (s : Fin 4096) (f : Fin 256) :
    cenS x (ix3 b s f) = Cert.LnAgg.rowOf x b s f - Cert.LnAgg.mean (Cert.LnAgg.rowOf x b s) := by
  unfold cenS
  rw [subf_apply, bcFeat_at, meanS_at]
  rfl

/-- The bit pattern 0x43800000 is the real number 256. -/
theorem c256_real : Cert.LnAgg.c256 = ((256 : ℝ) : EReal) := by
  unfold Cert.LnAgg.c256
  simp [Ideal.ofBits, Ideal.ieee, -EReal.coe_mul]; norm_num

/-- The variance's divisor is 256: the correction word 0 converts to the real 0. -/
theorem divisorS_at : divisorS ix0 = Cert.LnAgg.c256 := by
  show Ideal.ofBits .f32 0x43800000#32 - (((0#32 : BitVec 32).toInt : ℝ) : EReal) = Cert.LnAgg.c256
  have h0 : (0#32 : BitVec 32).toInt = 0 := by decide
  rw [h0, Int.cast_zero, EReal.coe_zero, sub_zero]
  rfl

/-- The divisor is positive, so the comparison that guards the variance holds. -/
theorem guard_at : FloatOps.cmpf .ogt (divisorS ix0) (zeroS ix0) = 1#1 := by
  rw [divisorS_at, c256_real]
  show Ideal.cmp .ogt ((256 : ℝ) : EReal) (Ideal.ofBits .f32 0x00000000#32) = 1#1
  rw [Ideal.ofBits_zero_f32]
  have hpos : (0 : EReal) < ((256 : ℝ) : EReal) := by exact_mod_cast (by norm_num : (0 : ℝ) < 256)
  show BitVec.ofBool (decide ((0 : EReal) < ((256 : ℝ) : EReal))) = 1#1
  rw [decide_eq_true hpos]
  rfl

/-- The quotient of the squared differences' sum by the divisor is the specification's variance. -/
theorem varQ_at (x : FVec Ideal S32x4096x256 .f32) (b : Fin 32) (s : Fin 4096) (u : Fin 1) :
    varQ x (ix3 b s u) = Cert.LnAgg.var (Cert.LnAgg.rowOf x b s) := by
  unfold varQ
  rw [hostDivf_apply, bcRow_at, rowSum_at, broadcastInDim_scalar_apply, divisorS_at]
  unfold Cert.LnAgg.var
  refine congrArg (fun t => Ideal.div t Cert.LnAgg.c256) (Finset.sum_congr rfl fun k _ => ?_)
  rw [mulf_apply, cenS_at]

/-- The guarded variance is the specification's variance: the guard holds. -/
theorem varS_at (x : FVec Ideal S32x4096x256 .f32) (b : Fin 32) (s : Fin 4096) (u : Fin 1) :
    varS x (ix3 b s u) = Cert.LnAgg.var (Cert.LnAgg.rowOf x b s) := by
  unfold varS
  rw [select_apply, broadcastInDim_scalar_apply, cmpf_apply, guard_at, select_one, varQ_at]

/-- The normalized input at (b, s, f) is the specification's. -/
theorem xhatS_at (x : FVec Ideal S32x4096x256 .f32) (b : Fin 32) (s : Fin 4096) (f : Fin 256) :
    xhatS x (ix3 b s f) = Cert.LnAgg.xhat (Cert.LnAgg.rowOf x b s) f := by
  unfold xhatS
  rw [mulf_apply, cenS_at, bcFeat_at]
  show _ * Ideal.rsqrt (addf (varS x) _ (ix3 b s (0 : Fin 1))) = _
  rw [addf_apply, varS_at, broadcastInDim_scalar_apply]
  rfl

/-- A window mask broadcast to the whole array reads the mask at the time step. -/
theorem maskS_at (lo hi : BitVec 32) (b : Fin 32) (s : Fin 4096) (f : Fin 256) :
    maskS lo hi (ix3 b s f) = Cert.LnAgg.maskV lo hi (ix1 s) := by
  unfold maskS
  refine (broadcastInDim_apply _ _ _ _ (ix3 (0 : Fin 1) s (0 : Fin 1))
    (fun a => match a with | ⟨0, _⟩ => rfl | ⟨1, _⟩ => rfl | ⟨2, _⟩ => rfl)).trans ?_
  exact broadcastInDim_apply _ _ _ _ (ix1 s) (fun a => match a with | ⟨0, _⟩ => rfl)

/-- Row n of a [3, 256] table, broadcast along batch and time, reads the table at (n, f). -/
theorem rowS_at (n : ℕ) (hn : n < 3) (h : S3x256.Slices ![n, 0] S1x256) (g : FVec Ideal S3x256 .f32)
    (b : Fin 32) (s : Fin 4096) (f : Fin 256) :
    rowS ![n, 0] h g (ix3 b s f) = g (ix2 (⟨n, hn⟩ : Fin 3) f) := by
  unfold rowS
  refine (broadcastInDim_apply _ _ _ _ (ix3 (0 : Fin 1) (0 : Fin 1) f)
    (fun a => match a with | ⟨0, _⟩ => rfl | ⟨1, _⟩ => rfl | ⟨2, _⟩ => rfl)).trans ?_
  refine (broadcastInDim_apply _ _ _ _ (ix1 f) (fun a => match a with | ⟨0, _⟩ => rfl)).trans ?_
  refine (shapeCast_1a_a_apply _ _ f).trans ?_
  exact extractStridedSlice_apply _ _ _ _ _
    (fun a => match a with | ⟨0, _⟩ => rfl | ⟨1, _⟩ => (Nat.zero_add _).symm)

/-- Softmax weight n, broadcast to the whole array, reads the softmax at n. -/
theorem wS_at (n : ℕ) (hn : n < 3) (h : S3.Slices ![n] S1) (w : FVec Ideal S3 .f32)
    (b : Fin 32) (s : Fin 4096) (f : Fin 256) :
    wS ![n] h w (ix3 b s f) = Cert.LnAgg.softW w (ix1 (⟨n, hn⟩ : Fin 3)) := by
  unfold wS
  rw [broadcastInDim_scalar_apply]
  refine (shapeCast_apply _ _ _ (ix1 (0 : Fin 1)) ?_).trans ?_
  · rw [Shape.rowMajor_val_one]
    have h1 := (S_.rowMajor ix0).isLt
    have h2 : S_.numel = 1 := by decide
    show (0 : ℕ) = _
    omega
  · exact extractStridedSlice_apply _ _ _ _ _ (fun a => match a with | ⟨0, _⟩ => rfl)

/-- One scale's term at (b, s, f). -/
theorem termS_at (n : ℕ) (hn : n < 3) (hg : S3x256.Slices ![n, 0] S1x256) (hw : S3.Slices ![n] S1) (lo hi : BitVec 32)
    (x : FVec Ideal S32x4096x256 .f32) (γ β : FVec Ideal S3x256 .f32) (w : FVec Ideal S3 .f32)
    (b : Fin 32) (s : Fin 4096) (f : Fin 256) :
    termS (xhatS x) (rowS ![n, 0] hg γ) (rowS ![n, 0] hg β) (maskS lo hi) (wS ![n] hw w) (ix3 b s f)
      = Cert.LnAgg.softW w (ix1 (⟨n, hn⟩ : Fin 3))
        * ((Cert.LnAgg.xhat (Cert.LnAgg.rowOf x b s) f * γ (ix2 (⟨n, hn⟩ : Fin 3) f) + β (ix2 (⟨n, hn⟩ : Fin 3) f))
          * Cert.LnAgg.maskV lo hi (ix1 s)) := by
  unfold termS
  rw [mulf_apply, mulf_apply, addf_apply, mulf_apply, xhatS_at, rowS_at n hn, rowS_at n hn, maskS_at, wS_at n hn]

/-! ## The whole term -/

/-- The reference's result at (b, s, f) is the specification's, written the reference's way. -/
theorem refTerm_at (x : FVec Ideal S32x4096x256 .f32) (γ β : FVec Ideal S3x256 .f32) (w : FVec Ideal S3 .f32)
    (b : Fin 32) (s : Fin 4096) (f : Fin 256) :
    refTerm x γ β w (ix3 b s f) = Cert.LnAgg.GatR x γ β w b s f := by
  unfold refTerm
  rw [addf_apply, addf_apply, addf_apply, broadcastInDim_scalar_apply,
    termS_at 0 (by decide), termS_at 1 (by decide), termS_at 2 (by decide)]
  show Ideal.ofBits .f32 0x00000000#32 + _ + _ + _ = _
  rw [Ideal.ofBits_zero_f32]
  rfl

/-- The reference's result array is the specification's array, written the reference's way. -/
theorem refTerm_eq_GR (x : FVec Ideal S32x4096x256 .f32) (γ β : FVec Ideal S3x256 .f32) (w : FVec Ideal S3 .f32) :
    refTerm x γ β w = Cert.LnAgg.GR x γ β w := by
  funext i
  have hi : i = ix3 (n0 := 32) (n1 := 4096) (n2 := 256) (i 0) (i 1) (i 2) := eq_ix3 i
  calc refTerm x γ β w i
      = refTerm x γ β w (ix3 (n0 := 32) (n1 := 4096) (n2 := 256) (i 0) (i 1) (i 2)) := congrArg (refTerm x γ β w) hi
    _ = Cert.LnAgg.GatR x γ β w (i 0) (i 1) (i 2) := refTerm_at x γ β w (i 0) (i 1) (i 2)
    _ = Cert.LnAgg.GR x γ β w i := rfl

end Cert.ReferenceIdeal.Stages

end
-- ==== Proof.RefValue.lean ====
/-
  What the reference program's last buffer holds, as a function of its four arguments.

  The fold of the 132 operations over any contents V, read at the result buffer, is the composition of the host
  operations along the program's data flow: the rows normalized by their mean and variance (the variance function's
  division by 256 − 0 selected by 256 − 0 > 0), the three softmax weights, the three window masks, and the sum
  from 0, left to right, of  W a · ((xhat · γ a + β a) · M a)  over the scales a = 0, 1, 2. That composition is the
  stages' term. No operation writes an argument's buffer, so the four arguments read back unchanged.
-/
import proofs.«110902_j52630529245619_1_alg».proof.Proof.RefRun
import proofs.«110902_j52630529245619_1_alg».proof.Proof.Spec
import proofs.«110902_j52630529245619_1_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.Stages

attribute [local irreducible] Host.reduce Host.reduceAdd in
set_option maxRecDepth 16384 in
set_option maxHeartbeats 4000000 in
/-- The fold at the result buffer is the stages' term of the four arguments' contents: each operation's result at
    its own buffer is its function of its operands' buffers, and every other buffer keeps what it held. -/
theorem out_eq (V : Valuation τ sig (Elt Ideal)) :
    after (ops (F := Ideal)) V (main_v95 : DevRef τ sig)
      = refTerm (V (main_arg0 : DevRef τ sig)) (V (main_arg1 : DevRef τ sig)) (V (main_arg2 : DevRef τ sig))
          (V (main_arg3 : DevRef τ sig)) := by
  after_results_simp
  rfl

set_option maxRecDepth 16384 in
set_option maxHeartbeats 4000000 in
/-- No operation writes the first argument. -/
theorem arg0_eq (V : Valuation τ sig (Elt Ideal)) :
    after (ops (F := Ideal)) V (main_arg0 : DevRef τ sig) = V (main_arg0 : DevRef τ sig) := by
  after_results_simp

set_option maxRecDepth 16384 in
set_option maxHeartbeats 4000000 in
/-- No operation writes the second argument. -/
theorem arg1_eq (V : Valuation τ sig (Elt Ideal)) :
    after (ops (F := Ideal)) V (main_arg1 : DevRef τ sig) = V (main_arg1 : DevRef τ sig) := by
  after_results_simp

set_option maxRecDepth 16384 in
set_option maxHeartbeats 4000000 in
/-- No operation writes the third argument. -/
theorem arg2_eq (V : Valuation τ sig (Elt Ideal)) :
    after (ops (F := Ideal)) V (main_arg2 : DevRef τ sig) = V (main_arg2 : DevRef τ sig) := by
  after_results_simp

set_option maxRecDepth 16384 in
set_option maxHeartbeats 4000000 in
/-- No operation writes the fourth argument. -/
theorem arg3_eq (V : Valuation τ sig (Elt Ideal)) :
    after (ops (F := Ideal)) V (main_arg3 : DevRef τ sig) = V (main_arg3 : DevRef τ sig) := by
  after_results_simp

/-- On every device, from any memory with zero counters: every weakly fair execution of @main terminates with the
    result buffer at the stages' term of the arguments' launch contents, and the arguments unchanged. -/
theorem run_refTerm (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v95)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v95).trans (out_eq _),
      (h c main_arg0).trans (arg0_eq _), (h c main_arg1).trans (arg1_eq _),
      (h c main_arg2).trans (arg2_eq _), (h c main_arg3).trans (arg3_eq _)⟩)
    (run_main m ρ)

/-- The same with the stages' term identified with the specification's array, the reference's way: on every device,
    from any memory with zero counters, every weakly fair execution of @main terminates with the result buffer at
    Σₐ W a · ((xhat · γ a f + β a f) · M a s) of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v95)
          = Cert.LnAgg.GR (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1).trans (refTerm_eq_GR _ _ _ _), (h c).2⟩) (run_refTerm m ρ)

end Cert.ReferenceIdeal.RefValue

end
-- ==== Proof.NormReal.lean ====
/-
  On real inputs the normalized row is real, and the two forms of the aggregation agree.

  With real entries a finite sum is real; 256 is a nonzero real, so the mean and the variance are real quotients; the
  variance is a sum of squares over 256, hence not negative; ε is a positive real, so var + ε is positive and its
  reciprocal square root is the real (√·)⁻¹; a product of reals is real.  On reals the kernel's table form and the
  reference's sum over the scales agree by distributivity.
-/
import proofs.«110902_j52630529245619_1_alg».proof.Proof.Spec
import Mathlib.Data.EReal.Basic
import Mathlib.Data.EReal.Operations
import Mathlib.Data.EReal.Inv
import Mathlib.Analysis.SpecialFunctions.Pow.Real
import Mathlib.Algebra.BigOperators.Group.Finset.Basic
import Mathlib.Algebra.Order.BigOperators.Ring.Finset
import Mathlib.Tactic.Ring
import Mathlib.Tactic.NormNum
import Mathlib.Tactic.Positivity

noncomputable section

namespace Cert.LnAgg

open Idealize.ShloMosaic Idealize.ShloMosaic.ValueIdx
open scoped BigOperators

/-! ## Finite sums of reals, read in the extended reals -/

/-- The coercion of a finite sum of reals is the sum of the coercions. -/
theorem coe_finset_sum {ι : Type*} (s : Finset ι) (t : ι → ℝ) :
    ((∑ k ∈ s, t k : ℝ) : EReal) = ∑ k ∈ s, (t k : EReal) := by
  classical
  induction s using Finset.induction_on with
  | empty => simp
  | insert a s ha ih => rw [Finset.sum_insert ha, Finset.sum_insert ha, EReal.coe_add, ih]

/-! ## The two constants -/

/-- The pattern 0x43800000 is the real 256. -/
theorem c256_eq : c256 = ((256 : ℝ) : EReal) := by
  unfold c256
  simp [Ideal.ofBits, Ideal.ieee, -EReal.coe_mul]; norm_num

/-- The pattern 0x3727C5AC is the positive dyadic 10995116 · 2⁻⁴⁰. -/
theorem ceps_eq : ceps = ((10995116 * (2 : ℝ) ^ (-40 : ℤ) : ℝ) : EReal) := by
  unfold ceps
  simp [Ideal.ofBits, Ideal.ieee, -EReal.coe_mul]

/-- ε is a positive real. -/
theorem ceps_pos : ∃ e : ℝ, 0 < e ∧ ceps = (e : EReal) :=
  ⟨10995116 * (2 : ℝ) ^ (-40 : ℤ), by positivity, ceps_eq⟩

/-! ## One real row -/

/-- The mean of a real row is the real mean. -/
theorem mean_coe (t : Fin 256 → ℝ) :
    mean (fun k => (t k : EReal)) = (((∑ k, t k) * (1 / 256) : ℝ) : EReal) := by
  unfold mean
  rw [c256_eq, Ideal.div_coe (by norm_num : (256 : ℝ) ≠ 0), ← coe_finset_sum, ← EReal.coe_mul]

/-- The variance of a real row is the real variance. -/
theorem var_coe (t : Fin 256 → ℝ) :
    var (fun k => (t k : EReal))
      = (((∑ k, (t k - (∑ j, t j) * (1 / 256)) * (t k - (∑ j, t j) * (1 / 256))) * (1 / 256) : ℝ) : EReal) := by
  unfold var
  rw [mean_coe, c256_eq, Ideal.div_coe (by norm_num : (256 : ℝ) ≠ 0)]
  have h : ∀ k : Fin 256, ((t k : EReal) - (((∑ j, t j) * (1 / 256) : ℝ) : EReal))
        * ((t k : EReal) - (((∑ j, t j) * (1 / 256) : ℝ) : EReal))
      = (((t k - (∑ j, t j) * (1 / 256)) * (t k - (∑ j, t j) * (1 / 256)) : ℝ) : EReal) := by
    intro k
    rw [← EReal.coe_sub, ← EReal.coe_mul]
  rw [Finset.sum_congr rfl (fun k _ => h k), ← coe_finset_sum, ← EReal.coe_mul]

/-- The real variance is not negative. -/
theorem var_real_nonneg (t : Fin 256 → ℝ) :
    0 ≤ (∑ k, (t k - (∑ j, t j) * (1 / 256)) * (t k - (∑ j, t j) * (1 / 256))) * (1 / 256 : ℝ) := by
  apply mul_nonneg
  · exact Finset.sum_nonneg (fun k _ => mul_self_nonneg _)
  · norm_num

/-- The normalized entry of a real row is real. -/
theorem xhat_real (r : Fin 256 → EReal) (hr : ∀ k, ∃ t : ℝ, r k = (t : EReal)) (f : Fin 256) :
    ∃ t : ℝ, xhat r f = (t : EReal) := by
  choose t ht using hr
  obtain rfl : r = fun k => (t k : EReal) := funext ht
  obtain ⟨e, he, hce⟩ := ceps_pos
  have hv := var_real_nonneg t
  unfold xhat
  rw [var_coe, mean_coe, hce, ← EReal.coe_add, ← EReal.coe_sub, Ideal.rsqrt_coe,
    if_neg (not_lt.mpr (by linarith)), if_neg (by linarith [hv, he] : ¬ _ = (0 : ℝ)), ← EReal.coe_mul]
  exact ⟨_, rfl⟩

/-! ## The aggregation on reals -/

/-- On real numbers the reference's sum over the scales is the kernel's table form. -/
theorem outR_eq_outK (xh : EReal) (W : Fin 3 → EReal) (M : Fin 3 → Fin 4096 → EReal) (g b : Fin 3 → Fin 256 → EReal)
    (s : Fin 4096) (f : Fin 256)
    (hx : ∃ t : ℝ, xh = ↑t) (hW : ∀ a, ∃ t : ℝ, W a = ↑t) (hM : ∀ a s, ∃ t : ℝ, M a s = ↑t)
    (hg : ∀ a f, ∃ t : ℝ, g a f = ↑t) (hb : ∀ a f, ∃ t : ℝ, b a f = ↑t) :
    outR xh W M g b s f = outK xh W M g b s f := by
  obtain ⟨x, rfl⟩ := hx
  obtain ⟨w0, hw0⟩ := hW 0
  obtain ⟨w1, hw1⟩ := hW 1
  obtain ⟨w2, hw2⟩ := hW 2
  obtain ⟨m0, hm0⟩ := hM 0 s
  obtain ⟨m1, hm1⟩ := hM 1 s
  obtain ⟨m2, hm2⟩ := hM 2 s
  obtain ⟨g0, hg0⟩ := hg 0 f
  obtain ⟨g1, hg1⟩ := hg 1 f
  obtain ⟨g2, hg2⟩ := hg 2 f
  obtain ⟨b0, hb0⟩ := hb 0 f
  obtain ⟨b1, hb1⟩ := hb 1 f
  obtain ⟨b2, hb2⟩ := hb 2 f
  unfold outR outK tab
  rw [hw0, hw1, hw2, hm0, hm1, hm2, hg0, hg1, hg2, hb0, hb1, hb2]
  simp only [← EReal.coe_zero, ← EReal.coe_mul, ← EReal.coe_add]
  congr 1
  ring

/-- At one index the two forms of the result agree on real inputs. -/
theorem GatR_eq_GatK (x : FVec Ideal SX .f32) (γ β : FVec Ideal S3x256 .f32) (w : FVec Ideal S3 .f32)
    (hx : AllReal x) (hγ : AllReal γ) (hβ : AllReal β)
    (hW : ∀ a, ∃ t : ℝ, Wof w a = ↑t) (hM : ∀ a s, ∃ t : ℝ, maskOf a s = ↑t)
    (b : Fin 32) (s : Fin 4096) (f : Fin 256) :
    GatR x γ β w b s f = GatK x γ β w b s f := by
  unfold GatR GatK
  exact outR_eq_outK _ _ _ _ _ s f
    (xhat_real _ (fun k => hx (ix3 b s k)) f) hW hM
    (fun a f => hγ (ix2 a f)) (fun a f => hβ (ix2 a f))

/-- The two result arrays agree on real inputs. -/
theorem GR_eq_G (x : FVec Ideal SX .f32) (γ β : FVec Ideal S3x256 .f32) (w : FVec Ideal S3 .f32)
    (hx : AllReal x) (hγ : AllReal γ) (hβ : AllReal β)
    (hW : ∀ a, ∃ t : ℝ, Wof w a = ↑t) (hM : ∀ a s, ∃ t : ℝ, maskOf a s = ↑t) :
    GR x γ β w = G x γ β w := by
  funext i
  exact GatR_eq_GatK x γ β w hx hγ hβ hW hM (i 0) (i 1) (i 2)

end Cert.LnAgg

end
-- ==== Proof.SoftReal.lean ====
/-
  The aggregation weights and the window masks are real numbers.

  The softmax of three real logits w is real at every index. Its maximum M = max (−∞) (max over the three logits, from −∞) is
  the greatest of three reals, a real; each numerator exp (w i − M) is the real exponential of a real, so positive; the
  denominator 0 + Σ of the three numerators is a positive real, so not zero; a real over a real that is not zero is a real.
  A window mask is the conversion of a one-bit word read unsigned, the real 0 or 1.
-/
import proofs.«110902_j52630529245619_1_alg».proof.Proof.Spec
import Idealize.ShloMosaic.PureOps.Reduce
import Idealize.ShloMosaic.PureOps.Ideal.Laws
import Idealize.ShloMosaic.Lib.IdealHost
import Idealize.ShloMosaic.Lib.ValueIdx

noncomputable section

namespace Cert.LnAgg

open Idealize.ShloMosaic Idealize.ShloMosaic.ValueIdx
open scoped BigOperators

/-! ## Extended reals -/

/-- The f32 pattern 0xFF800000 is −∞. -/
theorem ofBits_negInf_f32 : Ideal.ofBits .f32 0xFF800000#32 = ⊥ := by simp [Ideal.ofBits, Ideal.ieee]

/-- A finite sum of reals, taken in the extended reals, is the real sum. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The maximum, taken from −∞, of a family of reals that has a member is a real. -/
theorem fold_max_real {ι : Type} (S : Finset ι) (hS : S.Nonempty) (x : ι → EReal) (hx : ∀ i ∈ S, ∃ r : ℝ, x i = (r : EReal)) :
    ∃ r : ℝ, S.fold max ⊥ x = (r : EReal) := by
  have h1 : S.fold max ⊥ x ≠ ⊤ := by
    refine ne_of_lt ((Finset.fold_max_lt _).2 ⟨bot_lt_top, fun i hi => ?_⟩)
    obtain ⟨r, hr⟩ := hx i hi
    rw [hr]; exact EReal.coe_lt_top r
  have h2 : S.fold max ⊥ x ≠ ⊥ := by
    obtain ⟨i, hi⟩ := hS
    obtain ⟨r, hr⟩ := hx i hi
    exact ne_of_gt ((Finset.lt_fold_max _).2 (Or.inr ⟨i, hi, by rw [hr]; exact EReal.bot_lt_coe r⟩))
  exact ⟨_, (EReal.coe_toReal h1 h2).symm⟩

/-! ## The two broadcasts of a scalar to the three scales -/

/-- A scalar broadcast to one element and then to three reads the scalar. -/
theorem bc3_apply {α : Type} (m : S_.Idx → α) (i : S3.Idx) :
    broadcastInDim S3 ![0] bc_S1_S3 (broadcastInDim S1 ![] bc_S_S1 m) i = m ix0 := by
  unfold broadcastInDim
  exact congrArg m (funext fun a => a.elim0)

/-! ## The maximum of the logits -/

/-- The maximum the softmax subtracts: max (−∞) (the maximum of the three logits, taken from −∞). -/
def maxW (w : FVec Ideal S3 .f32) : EReal :=
  maximumf (F := Ideal) (constant S_ .f32 0xFF800000#32)
    (Host.reduce FloatOps.maximumf w (constant S_ .f32 0xFF800000#32) red_S3 pos_S_) ix0

/-- The maximum of three reals is a real. -/
theorem maxW_real (w : FVec Ideal S3 .f32) (hw : AllReal w) : ∃ M : ℝ, maxW w = (M : EReal) := by
  unfold maxW
  rw [maximumf_apply, constant_apply, ofBits_negInf_f32, max_bot_left, Host.reduce_eq_fold, constant_apply, ofBits_negInf_f32]
  refine fold_max_real _ ⟨ix1 (0 : Fin 3), ?_⟩ w fun i _ => hw i
  refine Finset.mem_filter.2 ⟨Finset.mem_univ _, ?_⟩
  funext b
  exact b.elim0

/-! ## The numerators -/

/-- A numerator at an index: exp (w i − M). -/
theorem softE_apply (w : FVec Ideal S3 .f32) (i : S3.Idx) : softE w i = Ideal.exp (w i - maxW w) := by
  have h : softE w i = Ideal.exp (w i - broadcastInDim S3 ![0] bc_S1_S3 (broadcastInDim S1 ![] bc_S_S1
      (maximumf (F := Ideal) (constant S_ .f32 0xFF800000#32)
        (Host.reduce FloatOps.maximumf w (constant S_ .f32 0xFF800000#32) red_S3 pos_S_))) i) := rfl
  rw [h, bc3_apply]; rfl

/-- Each numerator is a positive real. -/
theorem softE_pos (w : FVec Ideal S3 .f32) (hw : AllReal w) (i : S3.Idx) : ∃ r : ℝ, 0 < r ∧ softE w i = (r : EReal) := by
  obtain ⟨M, hM⟩ := maxW_real w hw
  obtain ⟨r, hr⟩ := hw i
  refine ⟨Real.exp (r - M), Real.exp_pos _, ?_⟩
  rw [softE_apply, hM, hr, ← EReal.coe_sub, Ideal.exp_coe]

/-! ## The denominator -/

/-- The softmax denominator: 0 + Σ of the three numerators. -/
def sumE (w : FVec Ideal S3 .f32) : EReal :=
  Host.reduceAdd (softE w) (constant S_ .f32 0x00000000#32) red_S3 pos_S_ ix0

/-- The denominator is a positive real. -/
theorem sumE_pos (w : FVec Ideal S3 .f32) (hw : AllReal w) : ∃ r : ℝ, 0 < r ∧ sumE w = (r : EReal) := by
  choose f hf0 hf using softE_pos w hw
  refine ⟨∑ i, f i, Finset.sum_pos (fun i _ => hf0 i) ⟨ix1 (0 : Fin 3), Finset.mem_univ _⟩, ?_⟩
  unfold sumE
  rw [hostReduceAdd_apply, Ideal.hostReduceAdd_total red_S3 (fun b => b.elim0), constant_apply, Ideal.ofBits_zero_f32, zero_add,
    ← coe_sum]
  exact Finset.sum_congr rfl fun i _ => hf i

/-! ## The weights -/

/-- A weight at an index: the numerator over the denominator. -/
theorem softW_apply (w : FVec Ideal S3 .f32) (i : S3.Idx) : softW w i = Ideal.div (softE w i) (sumE w) := by
  have h : softW w i = Ideal.div (softE w i) (broadcastInDim S3 ![0] bc_S1_S3 (broadcastInDim S1 ![] bc_S_S1
      (Host.reduceAdd (softE w) (constant S_ .f32 0x00000000#32) red_S3 pos_S_)) i) := rfl
  rw [h, bc3_apply]; rfl

/-- THE WEIGHTS ARE REAL: a real numerator over a real denominator that is not zero. -/
theorem softW_real (w : FVec Ideal S3 .f32) (hw : AllReal w) : AllReal (softW w) := by
  intro i
  obtain ⟨e, _, he⟩ := softE_pos w hw i
  obtain ⟨d, hd, hd'⟩ := sumE_pos w hw
  refine ⟨e * (1 / d), ?_⟩
  rw [softW_apply, he, hd', Ideal.div_coe hd.ne', ← EReal.coe_mul]

/-- The weight of scale a is real. -/
theorem Wof_real (w : FVec Ideal S3 .f32) (hw : AllReal w) (a : Fin 3) : ∃ r : ℝ, Wof w a = (r : EReal) :=
  softW_real w hw (ix1 a)

/-! ## The masks -/

/-- A window mask is real at every time step: a one-bit word read unsigned. -/
theorem maskV_real (lo hi : BitVec 32) : AllReal (maskV lo hi) := fun _ => ⟨_, rfl⟩

/-- Scale a's mask at time step s is real. -/
theorem maskOf_real (a : Fin 3) (s : Fin 4096) : ∃ r : ℝ, maskOf a s = (r : EReal) := by
  fin_cases a
  · exact maskV_real 2#32 4094#32 (ix1 s)
  · exact maskV_real 5#32 4092#32 (ix1 s)
  · exact maskV_real 10#32 4087#32 (ix1 s)

end Cert.LnAgg

end
-- ==== Proof.PreFinite.lean ====
/-
  The precondition read back: each of its four conjuncts is a reduction by `and`, over every axis, of the elementwise
  comparison |v i| < +∞. A conjunction of one-bit words that is 1 has every conjunct 1; a reduction by `and` that is 1
  met a 1 at every index; and on the extended reals |v| = max v (−v) is below +∞ exactly when v is neither −∞ nor +∞,
  that is, when v is a real number. Hence every entry of each of the four argument arrays is real.
-/
import proofs.«110902_j52630529245619_1_alg».proof.Pre_finite_inputs
import proofs.«110902_j52630529245619_1_alg».proof.Proof.Gen.Pre_finite_inputs
import proofs.«110902_j52630529245619_1_alg».proof.Proof.Spec
import Idealize.ShloMosaic.Lib.ReduceAll
import Idealize.ShloMosaic.Lib.WordArith
import Idealize.ShloMosaic.Lib.IdealHost
import Idealize.ShloMosaic.Lib.ValueIdx

noncomputable section

namespace Cert.LnAgg

open Idealize.ShloMosaic Idealize.ShloMosaic.ValueIdx

/-- The scalar shape has one index. -/
instance subsingleton_S_Idx : Subsingleton S_.Idx := ⟨fun a b => funext fun d => d.elim0⟩

/-- The bit pattern 0x7F800000 is +∞. -/
theorem inf_f32 : Ideal.ofBits .f32 0x7F800000#32 = (⊤ : EReal) := by
  simp [Ideal.ofBits, Ideal.ieee]

/-- An extended real whose absolute value max v (−v) is below +∞ is a real number: −∞ and +∞ both have absolute
    value +∞. -/
theorem real_of_abs_lt_top (v : EReal) (h : max v (-v) < ⊤) : ∃ r : ℝ, v = (r : EReal) := by
  induction v using EReal.rec with
  | bot => simp at h
  | coe r => exact ⟨r, rfl⟩
  | top => simp at h

/-- The ordered comparison "less than" is 1 exactly when the strict inequality holds. -/
theorem cmp_olt_eq_one (a b : EReal) : Ideal.cmp .olt a b = 1#1 ↔ a < b := by
  unfold Ideal.cmp
  rw [WordArith.ofBool_eq_one_iff]
  exact decide_eq_true_iff

/-- One `jnp.all(|v| < +∞)` that came out 1: every entry of `v` is real. -/
theorem allReal_of_all {s : Shape} {axes : List (Fin s.rank)} (v : FVec Ideal s .f32)
    (hb : S_.BroadcastsInDim s (![] : Fin 0 → Fin s.rank)) (hr : s.ReducesTo axes S_) (hu : 0 < S_.numel)
    (init : S_.Idx → BitVec 1)
    (e : Host.reduce IntOp.andi
          (cmpf .olt (Host.absf v) (broadcastInDim s ![] hb (constant (F := Ideal) S_ .f32 0x7F800000#32))) init hr hu ix0 = 1#1) :
    AllReal v := by
  intro i
  have hi := Host.reduce_andi_all _ init hr hu ix0 e i
  rw [cmpf_apply, broadcastInDim_scalar_apply, constant_apply, inf_f32] at hi
  exact real_of_abs_lt_top (v i) ((cmp_olt_eq_one _ _).1 hi)

/-- THE PRECONDITION DECODED: all four argument arrays hold real numbers only. -/
theorem allReal_of_pre (x : FVec Ideal SX .f32) (γ β : FVec Ideal S3x256 .f32) (w : FVec Ideal S3 .f32)
    (h : Cert.Pre_finite_inputs.fn (F := Ideal) x γ β w = fun _ => 1#1) :
    AllReal x ∧ AllReal γ ∧ AllReal β ∧ AllReal w := by
  have e := congrFun h ix0
  dsimp only [Cert.Pre_finite_inputs.fn, Cert.Pre_finite_inputs.fn_part1, andi] at e
  rw [IntOp.andi_eq_one, IntOp.andi_eq_one, IntOp.andi_eq_one] at e
  obtain ⟨⟨⟨hx, hg⟩, hbt⟩, hw⟩ := e
  exact ⟨allReal_of_all x _ _ _ _ hx, allReal_of_all γ _ _ _ _ hg, allReal_of_all β _ _ _ _ hbt,
    allReal_of_all w _ _ _ _ hw⟩

end Cert.LnAgg

end
-- ==== Proof.lean ====
/-
  The certificate's claims.

  Both programs compute, for every batch entry b, time step s and feature f, the LayerNorm of row (b, s) over its 256
  features, aggregated over three window scales with softmax weights W, window masks M and per-scale gains g and biases β.
  The kernel has folded the aggregation into two per-(s, f) tables built on the host,
      x̂ · (Σₐ (W a · M a s) · g a f) + Σₐ (W a · M a s) · β a f,
  the reference sums the scales,
      Σₐ W a · ((x̂ · g a f + β a f) · M a s).
  On real numbers these agree by distributivity. Every quantity is real under the precondition: finite inputs make x̂ real
  (the variance is a nonnegative real and ε is positive, so the reciprocal square root is taken of a positive real), the
  softmax of real logits is real (its denominator is a positive real), and a mask is 0 or 1.
  The kernel's side: its blocks tile the sequence axis and each row's sums run over the feature axis, which a block holds
  whole, so the result array is one whole-array function of the arrays the call reads. The reference's side: its host
  program read operation by operation.
-/
import proofs.«110902_j52630529245619_1_alg».proof.Defs
import proofs.«110902_j52630529245619_1_alg».proof.Proof.Gen.Kernel
import proofs.«110902_j52630529245619_1_alg».proof.Proof.Gen.Kernel.Frame
import proofs.«110902_j52630529245619_1_alg».proof.Proof.Gen.KernelIdeal
import proofs.«110902_j52630529245619_1_alg».proof.Proof.Gen.KernelIdeal.Frame
import proofs.«110902_j52630529245619_1_alg».proof.Proof.Gen.ReferenceIdeal
import proofs.«110902_j52630529245619_1_alg».proof.Proof.Gen.Pre_finite_inputs
import proofs.«110902_j52630529245619_1_alg».proof.Proof.KernelValue
import proofs.«110902_j52630529245619_1_alg».proof.Proof.RefValue
import proofs.«110902_j52630529245619_1_alg».proof.Proof.NormReal
import proofs.«110902_j52630529245619_1_alg».proof.Proof.SoftReal
import proofs.«110902_j52630529245619_1_alg».proof.Proof.PreFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end at `G` of the kernel's arguments: the kernel's by its blocks, the reference's by its host program read
    at an index and the distributive law on the reals the precondition provides. -/
theorem algebraic : Cert.algebraic_KernelIdeal_ReferenceIdeal := by
  intro m ρ m' ρ' hpre hagree
  refine ⟨fun c => Cert.LnAgg.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Blocks.run_G m ρ, ?_⟩
  refine (θ_run Cert.ReferenceIdeal.defs _ _).mono (fun _ h c => ⟨(h c).1.trans ?_, (h c).2⟩)
    (Cert.ReferenceIdeal.RefValue.run m' ρ')
  obtain ⟨e0, e1, e2, e3⟩ := hagree c
  rw [e0, e1, e2, e3]
  obtain ⟨hx, hγ, hβ, hw⟩ := Cert.LnAgg.allReal_of_pre _ _ _ _ (hpre c)
  exact Cert.LnAgg.GR_eq_G _ _ _ _ hx hγ hβ (Cert.LnAgg.Wof_real _ hw) Cert.LnAgg.maskOf_real

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
